-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  slices_S2x1600000_S1x1600000_0_0 : S2x1600000.Slices ![0, 0] S1x1600000
  shapeCasts_S1x1600000_S1600000 : S1x1600000.ShapeCasts S1600000

variable [Facts]

def fn_part2 {F : FTy → Type} [FloatOps F] (main_arg1 : IVec S2x1600000 32) (main_arg8 : FVec F S3 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : IVec S1x1600000 32 := (extractStridedSlice S1x1600000 ![0, 0] · slices_S2x1600000_S1x1600000_0_0) main_arg1
  let main_v40 : IVec S1600000 32 := shapeCast S1600000 main_v39 shapeCasts_S1x1600000_S1600000
  let main_c_14 : IVec S_ 32 := constantI S_ 32 4294867296#32
  let main_v41 : IVec S1600000 32 := broadcastInDim S1600000 ![] bcast_S_S1600000 main_c_14
  let main_v42 : IVec S1600000 1 := cmpi .sge main_v40 main_v41
  let main_v43 : IVec S1x1600000 32 := (extractStridedSlice S1x1600000 ![0, 0] · slices_S2x1600000_S1x1600000_0_0) main_arg1
  let main_v44 : IVec S1600000 32 := shapeCast S1600000 main_v43 shapeCasts_S1x1600000_S1600000
  let main_c_15 : IVec S_ 32 := constantI S_ 32 100000#32
  let main_v45 : IVec S1600000 32 := broadcastInDim S1600000 ![] bcast_S_S1600000 main_c_15
  let main_v46 : IVec S1600000 1 := cmpi .slt main_v44 main_v45
  let main_v47 : IVec S1600000 1 := andi main_v42 main_v46
  let main_c_16 : IVec S_ 1 := constantI S_ 1 1#1
  let main_v48 : IVec S_ 1 := (fun x v => Host.reduce IntOp.andi x v reducesTo_S1600000_S_d0 h_S_) main_v47 main_c_16
  let main_v49 : IVec S_ 1 := andi main_v38 main_v48
  main_v49

def fn_part1 {F : FTy → Type} [FloatOps F] (main_arg1 : IVec S2x1600000 32) (main_arg5 : FVec F S128x32 .f32) (main_arg6 : FVec F S32 .f32) (main_arg7 : FVec F S32x3 .f32) (main_arg8 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg5
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x3 .f32 := Host.absf main_arg7
  let main_cst_10 : FVec F S_ .f32 := constant S_ .f32 0x7F800000#32
  let main_v30 : FVec F S32x3 .f32 := broadcastInDim S32x3 ![] bcast_S_S32x3 main_cst_10
  let main_v31 : IVec S32x3 1 := cmpf .olt main_v29 main_v30
  let main_c_11 : IVec S_ 1 := constantI S_ 1 1#1
  let main_v32 : IVec S_ 1 := (fun x v => Host.reduce IntOp.andi x v reducesTo_S32x3_S_d0_1 h_S_) main_v31 main_c_11
  let main_v33 : IVec S_ 1 := andi main_v28 main_v32
  fn_part2 (F := F) main_arg1 main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x32 .f32) (main_arg6 : FVec F S32 .f32) (main_arg7 : FVec F S32x3 .f32) (main_arg8 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1 : Shape := ⟨1, ![1]⟩
abbrev S1x1 : Shape := ⟨2, ![1, 1]⟩
abbrev S1700000x128 : Shape := ⟨2, ![1700000, 128]⟩
abbrev S1x128 : Shape := ⟨2, ![1, 128]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩
abbrev S1x3 : Shape := ⟨2, ![1, 3]⟩
abbrev S100000x3 : Shape := ⟨2, ![100000, 3]⟩
abbrev S5000x3 : Shape := ⟨2, ![5000, 3]⟩

abbrev nBuf : Space → Nat
  | .hbm => 117
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S32x3, .f32⟩
  | .hbm, ⟨8, _⟩ => ⟨S3, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1, .i32⟩
  | .hbm, ⟨61, _⟩ => ⟨S_, .i32⟩
  | .hbm, ⟨62, _⟩ => ⟨S1700000x1, .i32⟩
  | .hbm, ⟨63, _⟩ => ⟨S1700000x1, .i1⟩
  | .hbm, ⟨64, _⟩ => ⟨S1x1, .i32⟩
  | .hbm, ⟨65, _⟩ => ⟨S1700000x1, .i32⟩
  | .hbm, ⟨66, _⟩ => ⟨S1700000x1, .i1⟩
  | .hbm, ⟨67, _⟩ => ⟨S1700000x1, .i1⟩
  | .hbm, ⟨68, _⟩ => ⟨S_, .i1⟩
  | .hbm, ⟨69, _⟩ => ⟨S1700000, .i1⟩
  | .hbm, ⟨70, _⟩ => ⟨S1700000x128, .f32⟩
  | .hbm, ⟨71, _⟩ => ⟨S1700000x128, .i1⟩
  | .hbm, ⟨72, _⟩ => ⟨S_, .f32⟩
  | .hbm, ⟨73, _⟩ => ⟨S1700000x128, .f32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x32, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1, .i32⟩
  | .hbm, ⟨93, _⟩ => ⟨S_, .i32⟩
  | .hbm, ⟨94, _⟩ => ⟨S1700000x1, .i32⟩
  | .hbm, ⟨95, _⟩ => ⟨S1700000x1, .i1⟩
  | .hbm, ⟨96, _⟩ => ⟨S1x1, .i32⟩
  | .hbm, ⟨97, _⟩ => ⟨S1700000x1, .i32⟩
  | .hbm, ⟨98, _⟩ => ⟨S1700000x1, .i1⟩
  | .hbm, ⟨99, _⟩ => ⟨S1700000x1, .i1⟩
  | .hbm, ⟨100, _⟩ => ⟨S_, .i1⟩
  | .hbm, ⟨101, _⟩ => ⟨S1700000, .i1⟩
  | .hbm, ⟨102, _⟩ => ⟨S1700000x32, .f32⟩
  | .hbm, ⟨103, _⟩ => ⟨S1700000x32, .i1⟩
  | .hbm, ⟨104, _⟩ => ⟨S_, .f32⟩
  | .hbm, ⟨105, _⟩ => ⟨S1700000x32, .f32⟩
  | .hbm, ⟨106, _⟩ => ⟨S1700000x32, .f32⟩
  | .hbm, ⟨107, _⟩ => ⟨S1700000x1, .f32⟩
  | .hbm, ⟨108, _⟩ => ⟨S1700000x32, .f32⟩
  | .hbm, ⟨109, _⟩ => ⟨S1700000x32, .f32⟩
  | .hbm, ⟨110, _⟩ => ⟨S_, .f32⟩
  | .hbm, ⟨111, _⟩ => ⟨S100000x32, .f32⟩
  | .hbm, ⟨112, _⟩ => ⟨S1700000x1, .i32⟩
  | .hbm, ⟨113, _⟩ => ⟨S100000x32, .f32⟩
  | .hbm, ⟨114, _⟩ => ⟨S1x32, .f32⟩
  | .hbm, ⟨115, _⟩ => ⟨S1x3, .f32⟩
  | .hbm, ⟨116, _⟩ => ⟨S100000x3, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S32x3, .f32⟩
  | .local _ .vmem, ⟨15, _⟩ => ⟨S1x3, .f32⟩
  | .local _ .vmem, ⟨16, _⟩ => ⟨S5000x3, .f32⟩
  | .local _ .vmem, ⟨17, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_6 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_cst_7 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x3 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S1700000_S1700000x32_0 : S1700000.BroadcastsInDim S1700000x32 (![0] : Fin 1 → Fin S1700000x32.rank)
  bcast_S_S1700000x32 : S_.BroadcastsInDim S1700000x32 (![] : Fin 0 → Fin S1700000x32.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S3_S1x3 : S3.ShapeCasts S1x3
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x32_S5000x32_1_0_0_1_n_n_wf : DotDims.WF S5000x128 S128x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x3_S5000x3_1_0_0_1_n_n_wf : DotDims.WF S5000x32 S32x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x3.size a ≤ S32x3.size a
  hwx2_2 : ∀ i : grid2.Coords, EltTy.bits .f32 = 32 ∨ (Rect.block (s := S32x3) S32x3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x3.size a ≤ S1x3.size a
  hwx2_3 : ∀ i : grid2.Coords, EltTy.bits .f32 = 32 ∨ (Rect.block (s := S1x3) S1x3.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x3.size a ≤ S100000x3.size a
  hwx2_4 : ∀ i : grid2.Coords, EltTy.bits .f32 = 32 ∨ (Rect.block (s := S100000x3) S5000x3.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x3_S5000x3_1_0_0_1_n_n : DotDims S5000x32 S32x3 S5000x3 where
  lhsContracting := [1]
  rhsContracting := [0]
  lhsNonContracting := [0]
  rhsNonContracting := [1]
  lhsBatch := []
  rhsBatch := []
  wf := dot_S5000x32_S32x3_S5000x3_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S32x3.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S5000x3.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x32 : Shape := ⟨2, ![100000, 32]⟩
abbrev S1700000x32 : Shape := ⟨2, ![1700000, 32]⟩
abbrev S1x32 : Shape := ⟨2, ![1, 32]⟩
abbrev S100000x3 : Shape := ⟨2, ![100000, 3]⟩
abbrev S1x3 : Shape := ⟨2, ![1, 3]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x32, .f32⟩
  | 6 => ⟨S32, .f32⟩
  | 7 => ⟨S32x3, .f32⟩
  | 8 => ⟨S3, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S100000, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S_, .f32⟩
  | 73 => ⟨S100000x128, .f32⟩
  | 74 => ⟨S100000x128, .i1⟩
  | 75 => ⟨S_, .f32⟩
  | 76 => ⟨S100000x128, .f32⟩
  | 77 => ⟨S100000x128, .f32⟩
  | 78 => ⟨S100000x128, .f32⟩
  | 79 => ⟨S100000, .i32⟩
  | 80 => ⟨S1700000, .i32⟩
  | 81 => ⟨S1700000, .i32⟩
  | 82 => ⟨S_, .f32⟩
  | 83 => ⟨S100000, .f32⟩
  | 84 => ⟨S1700000, .f32⟩
  | 85 => ⟨S_, .f32⟩
  | 86 => ⟨S100000, .f32⟩
  | 87 => ⟨S1700000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S100000x32, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x32, .f32⟩
  | 127 => ⟨S1700000x1, .f32⟩
  | _ => ⟨S100000x128, .f32⟩

abbrev hbmTy0_1 (i : Nat) : BufTy := match i % 128 with
  | 0 => ⟨S1700000x32, .f32⟩
  | 1 => ⟨S1700000x32, .f32⟩
  | 2 => ⟨S_, .f32⟩
  | 3 => ⟨S100000x32, .f32⟩
  | 4 => ⟨S1700000x1, .i32⟩
  | 5 => ⟨S100000x32, .f32⟩
  | 6 => ⟨S1x32, .f32⟩
  | 7 => ⟨S100000x32, .f32⟩
  | 8 => ⟨S100000x32, .f32⟩
  | 9 => ⟨S_, .f32⟩
  | 10 => ⟨S_, .f32⟩
  | 11 => ⟨S100000x32, .f32⟩
  | 12 => ⟨S100000x32, .i1⟩
  | 13 => ⟨S_, .f32⟩
  | 14 => ⟨S100000x32, .f32⟩
  | 15 => ⟨S100000x32, .f32⟩
  | 16 => ⟨S100000x32, .f32⟩
  | 17 => ⟨S100000x3, .f32⟩
  | 18 => ⟨S1x3, .f32⟩
  | 19 => ⟨S100000x3, .f32⟩
  | 20 => ⟨S100000x3, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_13 : Ref sig .tc := ⟨.hbm, 93, rfl⟩
abbrev main_call2_v0 : Ref sig .tc := ⟨.hbm, 94, rfl⟩
abbrev main_call2_v1 : Ref sig .tc := ⟨.hbm, 95, rfl⟩
abbrev main_v61 : Ref sig .tc := ⟨.hbm, 96, rfl⟩
abbrev main_c_14 : Ref sig .tc := ⟨.hbm, 97, rfl⟩
abbrev main_v62 : Ref sig .tc := ⟨.hbm, 98, rfl⟩
abbrev main_v63 : Ref sig .tc := ⟨.hbm, 99, rfl⟩
abbrev main_c_15 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_16 : Ref sig .tc := ⟨.hbm, 107, rfl⟩
abbrev main_v70 : Ref sig .tc := ⟨.hbm, 108, rfl⟩
abbrev main_v71 : Ref sig .tc := ⟨.hbm, 109, rfl⟩
abbrev main_c_17 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_18 : Ref sig .tc := ⟨.hbm, 118, rfl⟩
abbrev main_v79 : Ref sig .tc := ⟨.hbm, 119, rfl⟩
abbrev main_v80 : Ref sig .tc := ⟨.hbm, 120, rfl⟩
abbrev main_c_19 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_20 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_21 : Ref sig .tc := ⟨.hbm, 137, rfl⟩
abbrev main_call3_cst : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x3_S100000x3_1_0_0_1_n_n_wf : DotDims.WF S100000x32 S32x3 S100000x3 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x3_S100000x3_1_0_0_1_n_n : DotDims S100000x32 S32x3 S100000x3 where
  lhsContracting := [1]
  rhsContracting := [0]
  lhsNonContracting := [0]
  rhsNonContracting := [1]
  lhsBatch := []
  rhsBatch := []
  wf := dot_S100000x32_S32x3_S100000x3_1_0_0_1_n_n_wf

class Facts : Prop extends Facts₀ where

variable [Facts]
-- ==== Proof.GcnSpec.lean ====
/-
  The two-layer graph convolution both programs compute, as functions of whole arrays.

  Every edge (row e, col e) of the graph, followed by one self loop per node, carries a weight; a node's degree is the
  sum of the weights of the edges that end at it, and an edge's coefficient is
  dinv(row e) * weight e * dinv(col e) with dinv = 1 / sqrt(degree) where the degree is positive and 0 elsewhere.
  One aggregation takes a feature table xw, reads row (row e) of it for every edge, scales it by the edge's coefficient
  and adds it into row (col e) of a zero table. A layer is an aggregation, plus a bias row, through the leaky
  rectifier (h where h >= 0, slope * h elsewhere), and the network is
      out = act32 (agg (act128 (agg (x W1)) + b1 ... W2)) ... Wc + bc.
  The functions are spelt with the host operations of the reference program, so that reading the reference is a
  matter of matching text; a negative index is wrapped once before the gather, as jnp indexing does.
-/
import proofs.«409339_j59287728554038_2_alg».proof.Proof.Gen.ReferenceIdeal
import Idealize.ShloMosaic.PureOps.Ideal
import Idealize.ShloMosaic.Lib.ValueIdx

noncomputable section

namespace Cert.GcnSpec

open Idealize.ShloMosaic Cert.ReferenceIdeal Cert.ReferenceIdeal.Facts₀

variable {F : FTy → Type} [FloatOps F]

/-- Row r (0 or 1) of the edge table is read by a slice and a reshape; the sources are row 0 followed by the nodes
    themselves (the self loops). -/
def rowIdx (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- The targets: row 1 of the edge table followed by the nodes themselves. -/
def colIdx (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- The edge weights followed by weight one for every self loop. -/
def weights (ew : FVec F S1600000 .f32) : FVec F S1700000 .f32 :=
  concatenate S1700000 0
    [⟨S1600000, ew⟩, ⟨S100000, broadcastInDim S100000 ![] bcast_S_S100000 (constant S_ .f32 0x3F800000#32)⟩]
    concatenates_S1600000_S100000_S1700000_d0

/-- An index vector as the column of start indices a gather or a scatter takes. -/
def asColumn {α : Type} (v : S1700000.Idx → α) : S1700000x1.Idx → α :=
  broadcastInDim S1700000x1 ![0] bcast_S1700000_S1700000x1_0 v

/-- A negative index wrapped once (index + 100000), then laid as a column. -/
def wrapped (idx : IVec S1700000 32) : IVec S1700000x1 32 :=
  asColumn (select (cmpi .slt idx (broadcastInDim S1700000 ![] bcast_S_S1700000 (constantI S_ 32 0#32)))
    (addi idx (broadcastInDim S1700000 ![] bcast_S_S1700000 (constantI S_ 32 100000#32))) idx)

/-- A node's degree: the weights of the edges ending at it, added up. -/
def degree (col : IVec S1700000 32) (w : FVec F S1700000 .f32) : FVec F S100000 .f32 :=
  Host.scatterAdd scatter_S100000_S1700000x1_S1700000_n_0_0_1
    (broadcastInDim S100000 ![] bcast_S_S100000 (constant S_ .f32 0x00000000#32)) (asColumn col) w

/-- 1 / sqrt(degree) where the degree is positive, 0 elsewhere. -/
def dinv (col : IVec S1700000 32) (w : FVec F S1700000 .f32) : FVec F S100000 .f32 :=
  select (cmpf .ogt (degree col w) (broadcastInDim S100000 ![] bcast_S_S100000 (constant S_ .f32 0x00000000#32)))
    (Host.rsqrt (degree col w)) (broadcastInDim S100000 ![] bcast_S_S100000 (constant S_ .f32 0x00000000#32))

/-- An edge's coefficient: dinv at its source, times its weight, times dinv at its target. -/
def coeff (row col : IVec S1700000 32) (w : FVec F S1700000 .f32) : FVec F S1700000 .f32 :=
  mulf (mulf (Host.gather gather_S100000_S1700000x1_S1700000_n_0_n_n_0_1_1 (dinv col w) (wrapped row)) w)
    (Host.gather gather_S100000_S1700000x1_S1700000_n_0_n_n_0_1_1 (dinv col w) (wrapped col))

/-- One aggregation over 128 features: row (row e) of xw times the edge's coefficient, added into row (col e). -/
def agg128 (xw : FVec F S100000x128 .f32) (row col : IVec S1700000 32) (cf : FVec F S1700000 .f32) :
    FVec F S100000x128 .f32 :=
  Host.scatterAdd scatter_S100000x128_S1700000x1_S1700000x128_1_0_0_1
    (broadcastInDim S100000x128 ![] bcast_S_S100000x128 (constant S_ .f32 0x00000000#32)) (asColumn col)
    (mulf (Host.gather gather_S100000x128_S1700000x1_S1700000x128_1_0_n_n_0_1_1128 xw (wrapped row))
      (broadcastInDim S1700000x128 ![0, 1] bcast_S1700000x1_S1700000x128_0_1 (asColumn cf)))

/-- The same over 32 features. -/
def agg32 (xw : FVec F S100000x32 .f32) (row col : IVec S1700000 32) (cf : FVec F S1700000 .f32) :
    FVec F S100000x32 .f32 :=
  Host.scatterAdd scatter_S100000x32_S1700000x1_S1700000x32_1_0_0_1
    (broadcastInDim S100000x32 ![] bcast_S_S100000x32 (constant S_ .f32 0x00000000#32)) (asColumn col)
    (mulf (Host.gather gather_S100000x32_S1700000x1_S1700000x32_1_0_n_n_0_1_132 xw (wrapped row))
      (broadcastInDim S1700000x32 ![0, 1] bcast_S1700000x1_S1700000x32_0_1 (asColumn cf)))

/-- The leaky rectifier of (agg + bias row), the bias given as a [1, 128] row. -/
def actRow128 (agg : FVec F S100000x128 .f32) (brow : FVec F S1x128 .f32) : FVec F S100000x128 .f32 :=
  select
    (cmpf .oge (addf agg (broadcastInDim S100000x128 ![0, 1] bcast_S1x128_S100000x128_0_1 brow))
      (broadcastInDim S100000x128 ![] bcast_S_S100000x128 (constant S_ .f32 0x00000000#32)))
    (addf agg (broadcastInDim S100000x128 ![0, 1] bcast_S1x128_S100000x128_0_1 brow))
    (mulf (broadcastInDim S100000x128 ![] bcast_S_S100000x128 (constant S_ .f32 0x3C23D70A#32))
      (addf agg (broadcastInDim S100000x128 ![0, 1] bcast_S1x128_S100000x128_0_1 brow)))

/-- The same with the bias given as a vector. -/
def act128 (agg : FVec F S100000x128 .f32) (b : FVec F S128 .f32) : FVec F S100000x128 .f32 :=
  actRow128 agg (broadcastInDim S1x128 ![1] bcast_S128_S1x128_1 b)

/-- The leaky rectifier of (agg + bias row) over 32 features. -/
def actRow32 (agg : FVec F S100000x32 .f32) (brow : FVec F S1x32 .f32) : FVec F S100000x32 .f32 :=
  select
    (cmpf .oge (addf agg (broadcastInDim S100000x32 ![0, 1] bcast_S1x32_S100000x32_0_1 brow))
      (broadcastInDim S100000x32 ![] bcast_S_S100000x32 (constant S_ .f32 0x00000000#32)))
    (addf agg (broadcastInDim S100000x32 ![0, 1] bcast_S1x32_S100000x32_0_1 brow))
    (mulf (broadcastInDim S100000x32 ![] bcast_S_S100000x32 (constant S_ .f32 0x3C23D70A#32))
      (addf agg (broadcastInDim S100000x32 ![0, 1] bcast_S1x32_S100000x32_0_1 brow)))

def act32 (agg : FVec F S100000x32 .f32) (b : FVec F S32 .f32) : FVec F S100000x32 .f32 :=
  actRow32 agg (broadcastInDim S1x32 ![1] bcast_S32_S1x32_1 b)

/-- The three feature transforms: plain matrix products. -/
def mm1 (x : FVec F S100000x128 .f32) (W1 : FVec F S128x128 .f32) : FVec F S100000x128 .f32 :=
  Host.dotGeneral dot_S100000x128_S128x128_S100000x128_1_0_0_1_n_n none x W1
def mm2 (h : FVec F S100000x128 .f32) (W2 : FVec F S128x32 .f32) : FVec F S100000x32 .f32 :=
  Host.dotGeneral dot_S100000x128_S128x32_S100000x32_1_0_0_1_n_n none h W2
def mm3 (h : FVec F S100000x32 .f32) (Wc : FVec F S32x3 .f32) : FVec F S100000x3 .f32 :=
  Host.dotGeneral dot_S100000x32_S32x3_S100000x3_1_0_0_1_n_n none h Wc

/-- The classifier: h Wc plus the bias, the bias given as a [1, 3] row. -/
def headRow (h : FVec F S100000x32 .f32) (Wc : FVec F S32x3 .f32) (bcrow : FVec F S1x3 .f32) : FVec F S100000x3 .f32 :=
  addf (mm3 h Wc) (broadcastInDim S100000x3 ![0, 1] bcast_S1x3_S100000x3_0_1 bcrow)

def head (h : FVec F S100000x32 .f32) (Wc : FVec F S32x3 .f32) (bc : FVec F S3 .f32) : FVec F S100000x3 .f32 :=
  headRow h Wc (broadcastInDim S1x3 ![1] bcast_S3_S1x3_1 bc)

/-- Every index is a row number or a row number counted from the end: it lies in [-100000, 100000). -/
def InRange (idx : IVec S1700000 32) : Prop :=
  ∀ p : Fin 1700000, -100000 ≤ (idx (ValueIdx.ix1 p)).toInt ∧ (idx (ValueIdx.ix1 p)).toInt < 100000

/-- The whole network. -/
def result (x : FVec F S100000x128 .f32) (ei : IVec S2x1600000 32) (ew : FVec F S1600000 .f32)
    (W1 : FVec F S128x128 .f32) (b1 : FVec F S128 .f32) (W2 : FVec F S128x32 .f32) (b2 : FVec F S32 .f32)
    (Wc : FVec F S32x3 .f32) (bc : FVec F S3 .f32) : FVec F S100000x3 .f32 :=
  head
    (act32
      (agg32
        (mm2 (act128 (agg128 (mm1 x W1) (rowIdx ei) (colIdx ei) (coeff (rowIdx ei) (colIdx ei) (weights ew))) b1) W2)
        (rowIdx ei) (colIdx ei) (coeff (rowIdx ei) (colIdx ei) (weights ew)))
      b2)
    Wc bc

end Cert.GcnSpec

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.RegionMatmul.lean ====
/- Region 0 (x W1): the output array after the grid is the whole matrix product.

   The grid has 20 points. Point t holds rows 5000 t … 5000 t + 4999 of x (a [5000, 128] block) and the whole weight
   W1, and leaves in the output's block the product of the two: entry (p, q) of the block is the sum over k of
   x (5000 t + p, k) · W1 (k, q), which is entry (5000 t + p, q) of x W1 (the change of float format before the product
   is the identity on the extended reals, and a finite sum there has no order). Row r of the output is written by point
   r / 5000 and by no other, so the twenty blocks tile the array and it ends holding x W1 whatever it held before. -/
import proofs.«409339_j59287728554038_2_alg».proof.Proof.Gen.KernelIdeal.Frame
import proofs.«409339_j59287728554038_2_alg».proof.Proof.GcnSpec
import proofs.«409339_j59287728554038_2_alg».proof.Proof.LibDotPlain
import Idealize.ShloMosaic.Lib.Pipeline.Value

noncomputable section

open scoped BigOperators

namespace Cert.KernelIdeal.RegionValue

open Idealize.ShloMosaic Idealize.ShloMosaic.TcCoe Idealize.SL.Sem Idealize.ShloMosaic.StableHlo
open Idealize.ShloMosaic.ValueIdx
open Cert.KernelIdeal Cert.KernelIdeal.Gen

namespace Region0

/-- The host's plain product of an [m, k] array with a [k, n] array, read at (a, b): the sum over the contracted
    coordinate c of A (a, c) · B (c, b). It is the same sum as the matrix unit's product into the zero accumulator. -/
theorem hostDot_apply {m n k : Nat} {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (a : Fin m) (b : Fin n) :
    FloatOps.dotGeneral (⟨[1], [0], [0], [1], [], [], w⟩ : DotDims ⟨2, ![m, k]⟩ ⟨2, ![k, n]⟩ ⟨2, ![m, n]⟩) prec sched A B (ix2 a b)
      = ∑ c : Fin k, A (ix2 a c) * B (ix2 c b) :=
  ((Ideal.dotGeneral_apply _ prec sched A B (ix2 a b)).trans
      (Ideal.matmul_constant_zero_apply _ prec A B (ix2 a b)).symm).trans
    (Cert.LibDotPlain.matmul_zero_apply w prec A B a b)

/-- Entry (r, j) of x W1 is the sum over k of x (r, k) · W1 (k, j). -/
theorem mm1_apply (x : FVec Ideal Cert.ReferenceIdeal.S100000x128 .f32) (W : FVec Ideal Cert.ReferenceIdeal.S128x128 .f32)
    (r : Fin 100000) (j : Fin 128) :
    Cert.GcnSpec.mm1 (F := Ideal) x W (ix2 r j) = ∑ k : Fin 128, x (ix2 r k) * W (ix2 k j) :=
  hostDot_apply Cert.ReferenceIdeal.Facts₀.dot_S100000x128_S128x128_S100000x128_1_0_0_1_n_n_wf none .single x W r j

/-- The body's payload at (p, q) of its block: the sum over k of the row block's (p, k) times the weight's (k, q);
    the change of float format before the product is the identity on the extended reals. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) :=
  Cert.LibDotPlain.matmul_zero_apply Facts₀.dot_S5000x128_S128x128_S5000x128_1_0_0_1_n_n_wf none
    (truncf .bf16 x0 bitsLt_bf16_f32) (truncf .bf16 x1 bitsLt_bf16_f32) p q

/-- One entry of a point's block: when row p of the row block is row r of x and the weight block is W, the payload at
    (p, q) is entry (r, q) of x W. -/
theorem point_value (x : FVec Ideal S100000x128 .f32) (W : FVec Ideal S128x128 .f32)
    (x0 : Vec Ideal S5000x128 .f32) (x1 : Vec Ideal S128x128 .f32) (p : Fin 5000) (q : Fin 128) (r : Fin 100000)
    (h0 : ∀ k : Fin 128, x0 (ix2 p k) = x (ix2 r k)) (h1 : ∀ k : Fin 128, x1 (ix2 k q) = W (ix2 k q)) :
    k0_pay1 (F := Ideal) x0 x1 (ix2 p q) = Cert.GcnSpec.mm1 (F := Ideal) x W (ix2 r q) := by
  rw [pay_apply, mm1_apply]
  exact Finset.sum_congr rfl fun k _ => by rw [h0 k, h1 k]

/-- The index maps over the grid: at point t the two row windows' block index is (t, 0), the weight's is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's one store starts at the block's origin. -/
theorem hz : (![0, 0] : Fin 2 → Nat) = fun _ => 0 := funext fun a => by fin_cases a <;> rfl

variable (V : (c : Dev nD) → (b : Ref sig .tc) → Buf (Elt Ideal) ((c : Thread nD τ).loc b))

/-- What point t writes back is block t of x W1: a block's coordinate in the array is the block index times the block's
    size plus the coordinate inside the block, so entry (p, q) of the row blocks is row 5000 t + p of their arrays, and
    the weight's block is the weight. -/
theorem flushed_eq (c : Dev nD) (t : Fin cfg0.N) :
    (dat0 (F := Ideal) V c).flushed 2 t
      = ((cfg0.win 2).blk t).view.read (Elt Ideal) (Cert.GcnSpec.mm1 (F := Ideal) (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  have ht : t.val < 20 := lt_of_lt_of_eq t.isLt N_0
  funext j
  obtain ⟨p, q, rfl⟩ : ∃ (p : Fin 5000) (q : Fin 128), j = ix2 p q := ⟨j 0, j 1, eq_ix2 j⟩
  have hr : t.val * 5000 + p.val < 100000 := by have := p.isLt; omega
  have hemb : ((cfg0.win 2).blk t).view.emb (ix2 p q) = (ix2 (⟨t.val * 5000 + p.val, hr⟩ : Fin 100000) q : S100000x128.Idx) := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (F := Ideal) (iblk0 V c 0 t) (iblk0 V c 1 t) (ix2 p q)
    = Cert.GcnSpec.mm1 (F := Ideal) (V c main_arg0) (V c main_arg3) (((cfg0.win 2).blk t).view.emb (ix2 p q))
  refine (point_value (V c main_arg0) (V c main_arg3) (iblk0 V c 0 t) (iblk0 V c 1 t) p q ⟨t.val * 5000 + p.val, hr⟩
    (fun k => ?_) (fun k => ?_)).trans (congrArg (Cert.GcnSpec.mm1 (F := Ideal) (V c main_arg0) (V c main_arg3)) hemb.symm)
  · show V c main_arg0 (((cfg0.win 0).blk t).view.emb (ix2 p k)) = V c main_arg0 (ix2 (⟨t.val * 5000 + p.val, hr⟩ : Fin 100000) k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index of the array lies in point t's block iff each coordinate lies in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Row r of the array is written by point r / 5000: the twenty blocks of 5000 rows tile the 100000 rows. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 5000 < cfg0.N := lt_of_lt_of_eq (by omega : (i 0).val / 5000 < 20) N_0.symm
  obtain ⟨e0, e1, e2, e3, e4, e5⟩ := idx_facts ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    omega

end Region0

variable (V : (c : Dev nD) → (b : Ref sig .tc) → Buf (Elt Ideal) ((c : Thread nD τ).loc b))

/-- After the 20 grid points of the first pallas_call its output array is x W1, whatever the buffers held at entry. -/
theorem region0_array (c : Dev nD) :
    (dat0 (F := Ideal) V c).arrAt 2 cfg0.N = Cert.GcnSpec.mm1 (F := Ideal) (V c main_arg0) (V c main_arg3) :=
  (dat0 (F := Ideal) V c).arrAt_eq_of_cover 2 (Cert.GcnSpec.mm1 (F := Ideal) (V c main_arg0) (V c main_arg3))
    (fun t _ => Region0.flushed_eq V c t) (fun i => Region0.covered i)

end Cert.KernelIdeal.RegionValue

end
-- ==== Proof.RegionLayer2.lean ====
/- Region 1: the output array after the grid is act(agg + b1) W2. -/
import proofs.«409339_j59287728554038_2_alg».proof.Proof.Gen.KernelIdeal.Frame
import proofs.«409339_j59287728554038_2_alg».proof.Proof.GcnSpec
import proofs.«409339_j59287728554038_2_alg».proof.Proof.LibDotPlain
import Idealize.ShloMosaic.Lib.Pipeline.Value
import Idealize.ShloMosaic.PureOps.Ideal.Laws

noncomputable section

open scoped BigOperators

namespace Cert.KernelIdeal.RegionValue

open Idealize.ShloMosaic Idealize.ShloMosaic.TcCoe Idealize.SL.Sem Idealize.ShloMosaic.StableHlo
open Idealize.ShloMosaic.ValueIdx
open Cert.KernelIdeal Cert.KernelIdeal.Gen

variable (V : (c : Dev nD) → (b : Ref sig .tc) → Buf (Elt Ideal) ((c : Thread nD τ).loc b))

namespace Region1

/-! ## The leaky rectifier, two spellings -/

/-- The slope of the rectifier below zero, as the extended real its word denotes. -/
abbrev slope : EReal := Ideal.ofBits .f32 0x3C23D70A#32

/-- The kernel's spelling: v where v > 0, v * slope elsewhere. -/
def leakyK (v : EReal) : EReal := Scalar.select (Ideal.cmp .ogt v 0) v (v * slope)

/-- The specification's spelling: v where v >= 0, slope * v elsewhere. -/
def leakyS (v : EReal) : EReal := Scalar.select (Ideal.cmp .oge v 0) v (slope * v)

theorem cmp_ogt_zero_of_pos {v : EReal} (h : 0 < v) : Ideal.cmp .ogt v 0 = 1#1 := by
  show BitVec.ofBool (decide (0 < v)) = 1#1
  rw [decide_eq_true h]; rfl

theorem cmp_ogt_zero_of_not_pos {v : EReal} (h : ¬ 0 < v) : Ideal.cmp .ogt v 0 = 0#1 := by
  show BitVec.ofBool (decide (0 < v)) = 0#1
  rw [decide_eq_false h]; rfl

theorem cmp_oge_zero_of_nonneg {v : EReal} (h : 0 ≤ v) : Ideal.cmp .oge v 0 = 1#1 := by
  show BitVec.ofBool (decide (0 ≤ v)) = 1#1
  rw [decide_eq_true h]; rfl

theorem cmp_oge_zero_of_neg {v : EReal} (h : ¬ 0 ≤ v) : Ideal.cmp .oge v 0 = 0#1 := by
  show BitVec.ofBool (decide (0 ≤ v)) = 0#1
  rw [decide_eq_false h]; rfl

/-- The two spellings agree on every extended real: above zero both are v, below zero both are the product
    (multiplication commutes), and at zero the kernel's product 0 * slope is 0, which is v. -/
theorem leakyK_eq_leakyS (v : EReal) : leakyK v = leakyS v := by
  unfold leakyK leakyS
  rcases lt_trichotomy v 0 with h | h | h
  · rw [cmp_ogt_zero_of_not_pos (not_lt.mpr h.le), cmp_oge_zero_of_neg (not_le.mpr h), select_zero, select_zero, mul_comm]
  · subst h
    rw [cmp_ogt_zero_of_not_pos (lt_irrefl _), cmp_oge_zero_of_nonneg le_rfl, select_zero, select_one, zero_mul]
  · rw [cmp_ogt_zero_of_pos h, cmp_oge_zero_of_nonneg h.le, select_one, select_one]

/-! ## The specification read at an index -/

/-- The host's plain matrix product of an [m, k] array with a [k, n] array at (a, b): the sum over the contracted
    coordinate of A (a, c) * B (c, b). -/
theorem dotGeneral_plain_apply {m n k : Nat} {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (a : Fin m) (b : Fin n) :
    FloatOps.dotGeneral (⟨[1], [0], [0], [1], [], [], w⟩ : DotDims ⟨2, ![m, k]⟩ ⟨2, ![k, n]⟩ ⟨2, ![m, n]⟩) prec sched A B (ix2 a b)
      = ∑ c : Fin k, A (ix2 a c) * B (ix2 c b) := by
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The bias row laid under every row of the table, read at (r, k): the row's entry k. -/
theorem biasRows_apply (B : FVec Ideal Cert.ReferenceIdeal.S1x128 .f32) (r : Fin 100000) (k : Fin 128) :
    broadcastInDim Cert.ReferenceIdeal.S100000x128 ![0, 1] Cert.ReferenceIdeal.Facts₀.bcast_S1x128_S100000x128_0_1 B (ix2 r k)
      = B (ix2 0 k) :=
  broadcastInDim_apply _ _ B (ix2 r k) (ix2 0 k) fun a => by
    match a with
    | ⟨0, _⟩ => rfl
    | ⟨1, _⟩ => rfl

/-- A scalar constant spread over the table, read anywhere: the constant. -/
theorem splat_apply (b : BitVec 32) (i : Cert.ReferenceIdeal.S100000x128.Idx) :
    broadcastInDim Cert.ReferenceIdeal.S100000x128 ![] Cert.ReferenceIdeal.Facts₀.bcast_S_S100000x128
      (constant (F := Ideal) Cert.ReferenceIdeal.S_ .f32 b) i = Ideal.ofBits .f32 b :=
  broadcastInDim_apply _ _ _ i ix0 fun a => a.elim0

/-- The rectified table of the specification read at (r, k). -/
theorem actRow128_apply (A : FVec Ideal Cert.ReferenceIdeal.S100000x128 .f32) (B : FVec Ideal Cert.ReferenceIdeal.S1x128 .f32)
    (r : Fin 100000) (k : Fin 128) :
    Cert.GcnSpec.actRow128 (F := Ideal) A B (ix2 r k) = leakyS (A (ix2 r k) + B (ix2 0 k)) := by
  unfold Cert.GcnSpec.actRow128 leakyS
  rw [select_apply, cmpf_apply, mulf_apply, addf_apply, biasRows_apply, splat_apply, splat_apply, Ideal.ofBits_zero_f32]
  rfl

/-- The specification at (r, j): the sum over k of the rectified (agg (r, k) + bias k) times W2 (k, j). -/
theorem spec_apply (A : FVec Ideal Cert.ReferenceIdeal.S100000x128 .f32) (B : FVec Ideal Cert.ReferenceIdeal.S1x128 .f32)
    (W : FVec Ideal Cert.ReferenceIdeal.S128x32 .f32) (r : Fin 100000) (j : Fin 32) :
    Cert.GcnSpec.mm2 (F := Ideal) (Cert.GcnSpec.actRow128 A B) W (ix2 r j)
      = ∑ k : Fin 128, leakyS (A (ix2 r k) + B (ix2 0 k)) * W (ix2 k j) := by
  unfold Cert.GcnSpec.mm2
  refine (dotGeneral_plain_apply (m := 100000) (n := 32) (k := 128)
    Cert.ReferenceIdeal.Facts₀.dot_S100000x128_S128x32_S100000x32_1_0_0_1_n_n_wf none .single _ W r j).trans ?_
  exact Finset.sum_congr rfl fun k _ => by rw [actRow128_apply]

/-! ## The body's payload read at an index -/

/-- The kernel's bias row spread over the block's 5000 rows, read at (p, k): the row's entry k. -/
theorem biasBlock_apply (x1 : FVec Ideal S1x128 .f32) (p : Fin 5000) (k : Fin 128) :
    broadcastTo S5000x128 x1 broadcasts_S1x128_S5000x128 (ix2 p k) = x1 (ix2 0 k) :=
  broadcastTo_apply x1 _ (ix2 p k) (ix2 0 k) fun a => by
    match a with
    | ⟨0, _⟩ => rfl
    | ⟨1, _⟩ => rfl

/-- The payload at (p, q): the sum over k of the rectified (block row p, entry k, plus bias k) times the weight (k, q);
    the changes of float format are the identity on extended reals and the matrix unit starts from zero. -/
theorem pay_apply (x0 : Vec Ideal S5000x128 .f32) (x1 : Vec Ideal S1x128 .f32) (x2 : Vec Ideal S128x32 .f32)
    (p : Fin 5000) (q : Fin 32) :
    k1_pay1 x0 x1 x2 (ix2 p q) = ∑ k : Fin 128, leakyK (x0 (ix2 p k) + x1 (ix2 0 k)) * x2 (ix2 k q) := by
  unfold k1_pay1
  refine (Cert.LibDotPlain.matmul_zero_apply (m := 5000) (n := 32) (k := 128)
    dot_S5000x128_S128x32_S5000x32_1_0_0_1_n_n_wf none _ _ p q).trans ?_
  refine Finset.sum_congr rfl fun k _ => ?_
  rw [truncf_apply, truncf_apply, select_apply, cmpf_apply, mulf_apply, addf_apply, shapeCast_self, shapeCast_self,
    biasBlock_apply, broadcast_apply, broadcast_apply]
  unfold leakyK
  show Scalar.select (Ideal.cmp .ogt (x0 (ix2 p k) + x1 (ix2 0 k)) (Ideal.ofBits .f32 0x00000000#32)) _ _ * _ = _
  rw [Ideal.ofBits_zero_f32]
  rfl

/-! ## From the blocks to the array -/

theorem hz : (![0, 0] : Fin 2 → Nat) = fun _ => 0 := funext fun a => by fin_cases a <;> rfl

/-- The printed index maps over the 20 grid points: the row window and the output window sit at block (t, 0); the bias
    row and the weights are whole arrays at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row window's block at point t is rows 5000 t … 5000 t + 4999 of the aggregated table. -/
theorem rowBlock_apply (c : Dev nD) (t : Fin cfg1.N) (p : Fin 5000) (k : Fin 128) (r : Fin 100000)
    (hr : r.val = t.val * 5000 + p.val) :
    (iblk1 (F := Ideal) V c 0 t : Vec Ideal S5000x128 .f32) (ix2 p k) = (V c main_v39 : S100000x128.Idx → EReal) (ix2 r k) := by
  obtain ⟨e0, e1, -⟩ := idx_facts t
  unfold iblk1
  rw [View.read_apply]
  show V c main_v39 _ = V c main_v39 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The bias window's block at every point is the whole bias row. -/
theorem biasBlock_read (c : Dev nD) (t : Fin cfg1.N) (k : Fin 128) :
    (iblk1 (F := Ideal) V c 1 t : Vec Ideal S1x128 .f32) (ix2 0 k) = (V c main_v40 : S1x128.Idx → EReal) (ix2 0 k) := by
  obtain ⟨-, -, e2, e3, -⟩ := idx_facts t
  unfold iblk1
  rw [View.read_apply]
  show V c main_v40 _ = V c main_v40 _
  congr 1
  funext a
  apply Fin.ext
  match a with
  | ⟨0, _⟩ => show win1_1.index t (0 : Fin 2) * 1 + 1 * 0 = 0; rw [e2]
  | ⟨1, _⟩ => show win1_1.index t (1 : Fin 2) * 128 + 1 * k.val = k.val; rw [e3]; omega

/-- The weight window's block at every point is the whole weight matrix. -/
theorem weightBlock_read (c : Dev nD) (t : Fin cfg1.N) (k : Fin 128) (q : Fin 32) :
    (iblk1 (F := Ideal) V c 2 t : Vec Ideal S128x32 .f32) (ix2 k q) = (V c main_arg5 : S128x32.Idx → EReal) (ix2 k q) := by
  obtain ⟨-, -, -, -, e4, e5, -⟩ := idx_facts t
  unfold iblk1
  rw [View.read_apply]
  show V c main_arg5 _ = V c main_arg5 _
  congr 1
  funext a
  apply Fin.ext
  match a with
  | ⟨0, _⟩ => show win1_2.index t (0 : Fin 2) * 128 + 1 * k.val = k.val; rw [e4]; omega
  | ⟨1, _⟩ => show win1_2.index t (1 : Fin 2) * 32 + 1 * q.val = q.val; rw [e5]; omega

/-- What point t writes back is block t of the specification's table: entry (p, q) of the body's result is entry
    (5000 t + p, q) of act (agg + bias) W2. -/
theorem flushed_eq (c : Dev nD) (t : Fin cfg1.N) :
    (dat1 (F := Ideal) V c).flushed 3 t = ((cfg1.win 3).blk t).view.read (Elt Ideal)
      (Cert.GcnSpec.mm2 (F := Ideal) (Cert.GcnSpec.actRow128 (V c main_v39) (V c main_v40)) (V c main_arg5)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x32) hz]
  obtain ⟨-, -, -, -, -, -, e6, e7⟩ := idx_facts t
  refine funext fun j => ?_
  obtain ⟨p, q, rfl⟩ : ∃ (p : Fin 5000) (q : Fin 32), j = ix2 p q := ⟨j 0, j 1, eq_ix2 j⟩
  have hN : cfg1.N = 20 := N_1
  have hr : t.val * 5000 + p.val < 100000 := by have := t.isLt; omega
  show k1_pay1 (iblk1 V c 0 t) (iblk1 V c 1 t) (iblk1 V c 2 t) (ix2 p q)
    = Cert.GcnSpec.mm2 (F := Ideal) (Cert.GcnSpec.actRow128 (V c main_v39) (V c main_v40)) (V c main_arg5)
        (((cfg1.win 3).blk t).view.emb (ix2 p q))
  have hemb : ((cfg1.win 3).blk t).view.emb (ix2 p q) = ix2 (⟨t.val * 5000 + p.val, hr⟩ : Fin 100000) q := by
    funext a; apply Fin.ext
    match a with
    | ⟨0, _⟩ => show win1_3.index t (0 : Fin 2) * 5000 + 1 * p.val = t.val * 5000 + p.val; rw [e6]; omega
    | ⟨1, _⟩ => show win1_3.index t (1 : Fin 2) * 32 + 1 * q.val = q.val; rw [e7]; omega
  refine (pay_apply _ _ _ p q).trans ?_
  refine Eq.trans ?_ (congrArg (Cert.GcnSpec.mm2 (F := Ideal) (Cert.GcnSpec.actRow128 (V c main_v39) (V c main_v40)) (V c main_arg5)) hemb.symm)
  refine Eq.trans ?_ (spec_apply _ _ _ ⟨_, hr⟩ q).symm
  refine Finset.sum_congr rfl fun k _ => ?_
  rw [leakyK_eq_leakyS, rowBlock_apply V c t p k ⟨_, hr⟩ rfl, biasBlock_read, weightBlock_read]

/-- An index of the output table is in point t's block iff each coordinate is in the block's range on its axis. -/
theorem mem_blk (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v41).slice (win1_3.rect t)).set ↔ _
  rw [View.set_slice_whole, Rect.mem_set_unit]
  exact Iff.rfl

/-- Row r of the output table is covered by the point r / 5000, which writes back. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e6, e7⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e6, ht]; omega
  | ⟨1, _⟩ =>
    show win1_3.index t (1 : Fin 2) * 32 ≤ (i 1).val ∧ (i 1).val < win1_3.index t (1 : Fin 2) * 32 + 32
    rw [e7]; omega

end Region1

/-- After the 20 grid points the output table is act (agg + bias) W2: every point writes back its block of that one
    table, and the blocks cover it. -/
theorem region1_array (c : Dev nD) :
    (dat1 (F := Ideal) V c).arrAt 3 cfg1.N
      = Cert.GcnSpec.mm2 (F := Ideal) (Cert.GcnSpec.actRow128 (V c main_v39) (V c main_v40)) (V c main_arg5) :=
  (dat1 (F := Ideal) V c).arrAt_eq_of_cover 3 _ (fun t _ => Region1.flushed_eq V c t) Region1.cover

end Cert.KernelIdeal.RegionValue

end
-- ==== Proof.RegionHead.lean ====
/- Region 2: the output array after the grid is act(agg + b2) Wc + bc.

   The region reads four arrays: the aggregated table [100000, 32], a bias row [1, 32], the classifier matrix [32, 3] and
   a second bias row [1, 3]. Each of the 20 grid points takes 5000 rows of the table, adds the first bias row to every
   row, passes the sum through the leaky rectifier, multiplies by the classifier matrix and adds the second bias row;
   it writes the 5000 result rows back as block t of the result table. Read at an index, entry (p, j) of that block is
       Σ_k act(table(5000 t + p, k) + b(0, k)) · Wc(k, j) + bc(0, j),
   which is entry (5000 t + p, j) of the specification's table. Only one law separates the two sides: the kernel's
   rectifier keeps v where v > 0 and takes v · slope elsewhere, the specification's keeps v where v ≥ 0 and takes
   slope · v elsewhere; on the extended reals these are one function. The 20 blocks cover the table (row r lies in block
   r / 5000), so the table after the grid is the specification's. -/
import proofs.«409339_j59287728554038_2_alg».proof.Proof.Gen.KernelIdeal.Frame
import proofs.«409339_j59287728554038_2_alg».proof.Proof.GcnSpec
import proofs.«409339_j59287728554038_2_alg».proof.Proof.LibDotPlain
import Idealize.ShloMosaic.Lib.Pipeline.Value

noncomputable section

namespace Cert.KernelIdeal.RegionValue

open Idealize.ShloMosaic Idealize.ShloMosaic.TcCoe Idealize.SL.Sem Idealize.ShloMosaic.StableHlo
open Cert.KernelIdeal Cert.KernelIdeal.Gen

variable (V : (c : Dev nD) → (b : Ref sig .tc) → Buf (Elt Ideal) ((c : Thread nD τ).loc b))

namespace Region2

open Idealize.ShloMosaic.ValueIdx
open scoped BigOperators

/-! ## One block, read at an index -/

/-- The slope of the leaky rectifier: one literal word, the same on both sides, never evaluated. -/
abbrev slope : EReal := Ideal.ofBits .f32 0x3C23D70A#32

/-- The kernel's leaky rectifier at one value: v where v > 0, v · slope elsewhere. -/
def actK (v : EReal) : EReal := Scalar.select (Ideal.cmp .ogt v (Ideal.ofBits .f32 0x00000000#32)) v (v * slope)

/-- The specification's: v where v ≥ 0, slope · v elsewhere. -/
def actS (v : EReal) : EReal := Scalar.select (Ideal.cmp .oge v (Ideal.ofBits .f32 0x00000000#32)) v (slope * v)

/-- Entry (p, q) of what the body stores, from its four loaded blocks: the sum over the 32 hidden features of the
    rectified (row p + bias) times column q of the matrix, plus the second bias at q. -/
theorem head_block_apply (x0 : Vec Ideal S5000x32 .f32) (x1 : Vec Ideal S1x32 .f32) (x2 : Vec Ideal S32x3 .f32)
    (x3 : Vec Ideal S1x3 .f32) (p : Fin 5000) (q : Fin 3) :
    k2_pay1 (F := Ideal) x0 x1 x2 x3 (ix2 p q)
      = (∑ k : Fin 32, actK (x0 (ix2 p k) + x1 (ix2 0 k)) * x2 (ix2 k q)) + x3 (ix2 0 q) := by
  unfold k2_pay1
  simp only [shapeCast_self]
  rw [addf_apply]
  congr 1
  · refine (Cert.LibDotPlain.matmul_zero_apply (m := 5000) (k := 32) (n := 3) dot_S5000x32_S32x3_S5000x3_1_0_0_1_n_n_wf none _ _ p q).trans ?_
    refine Finset.sum_congr rfl fun k _ => ?_
    rw [truncf_apply, truncf_apply, select_apply, cmpf_apply, mulf_apply, addf_apply, broadcast_apply, broadcast_apply]
    rw [broadcastTo_apply x1 broadcasts_S1x32_S5000x32 (ix2 p k) (ix2 0 k) (fun a => by
      match a with
      | ⟨0, _⟩ => rfl
      | ⟨1, _⟩ => rfl)]
    rfl
  · exact broadcastTo_apply x3 broadcasts_S1x3_S5000x3 (ix2 p q) (ix2 0 q) (fun a => by
      match a with
      | ⟨0, _⟩ => rfl
      | ⟨1, _⟩ => rfl)

/-- The host's plain product of an [m, k] array with a [k, n] array at (a, b): the sum over the contracted coordinate. -/
theorem dotGeneral_plain_apply {m n k : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.dotGeneral (⟨[1], [0], [0], [1], [], [], w⟩ : DotDims ⟨2, ![m, k]⟩ ⟨2, ![k, n]⟩ ⟨2, ![m, n]⟩) prec .single A B
        (ix2 a b)
      = ∑ c : Fin k, A (ix2 a c) * B (ix2 c b) := by
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Entry (r, q) of the specification's table, from the four whole arrays: the same sum with the specification's rectifier. -/
theorem head_spec_apply (a0 : FVec Ideal S100000x32 .f32) (a1 : FVec Ideal S1x32 .f32) (a2 : FVec Ideal S32x3 .f32)
    (a3 : FVec Ideal S1x3 .f32) (r : Fin 100000) (q : Fin 3) :
    Cert.GcnSpec.headRow (F := Ideal) (Cert.GcnSpec.actRow32 a0 a1) a2 a3 (ix2 r q)
      = (∑ k : Fin 32, actS (a0 (ix2 r k) + a1 (ix2 0 k)) * a2 (ix2 k q)) + a3 (ix2 0 q) := by
  unfold Cert.GcnSpec.headRow Cert.GcnSpec.mm3 Cert.GcnSpec.actRow32
  rw [addf_apply]
  congr 1
  · refine (dotGeneral_plain_apply (m := 100000) (k := 32) (n := 3) Cert.ReferenceIdeal.Facts₀.dot_S100000x32_S32x3_S100000x3_1_0_0_1_n_n_wf none _ _ r q).trans ?_
    refine Finset.sum_congr rfl fun k _ => ?_
    rw [select_apply, cmpf_apply, mulf_apply, addf_apply]
    rw [broadcastInDim_apply (![0, 1] : Fin 2 → Fin Cert.ReferenceIdeal.S100000x32.rank) Cert.ReferenceIdeal.Facts₀.bcast_S1x32_S100000x32_0_1 a1 (ix2 r k) (ix2 0 k) (fun a => by
      match a with
      | ⟨0, _⟩ => rfl
      | ⟨1, _⟩ => rfl)]
    rw [broadcastInDim_apply (![] : Fin 0 → Fin Cert.ReferenceIdeal.S100000x32.rank) Cert.ReferenceIdeal.Facts₀.bcast_S_S100000x32 (constant (F := Ideal) Cert.ReferenceIdeal.S_ .f32 0x00000000#32) (ix2 r k) ix0 (fun a => a.elim0)]
    rw [broadcastInDim_apply (![] : Fin 0 → Fin Cert.ReferenceIdeal.S100000x32.rank) Cert.ReferenceIdeal.Facts₀.bcast_S_S100000x32 (constant (F := Ideal) Cert.ReferenceIdeal.S_ .f32 0x3C23D70A#32) (ix2 r k) ix0 (fun a => a.elim0)]
    rfl
  · exact broadcastInDim_apply (![0, 1] : Fin 2 → Fin Cert.ReferenceIdeal.S100000x3.rank) Cert.ReferenceIdeal.Facts₀.bcast_S1x3_S100000x3_0_1 a3 (ix2 r q) (ix2 0 q) (fun a => by
      match a with
      | ⟨0, _⟩ => rfl
      | ⟨1, _⟩ => rfl)

/-- The two rectifiers agree on the extended reals: above zero both keep v, below zero both give the product (the
    multiplication commutes), and at zero the kernel's 0 · slope is 0, the value the specification keeps. -/
theorem actK_eq_actS (v : EReal) : actK v = actS v := by
  unfold actK actS
  rw [Ideal.ofBits_zero_f32]
  rcases lt_trichotomy v 0 with h | h | h
  · have h1 : Ideal.cmp .ogt v 0 = 0#1 := by simp [Ideal.cmp, not_lt.mpr h.le]
    have h2 : Ideal.cmp .oge v 0 = 0#1 := by simp [Ideal.cmp, not_le.mpr h]
    rw [h1, h2, select_zero, select_zero, mul_comm]
  · subst h
    have h1 : Ideal.cmp .ogt (0 : EReal) 0 = 0#1 := by simp [Ideal.cmp]
    have h2 : Ideal.cmp .oge (0 : EReal) 0 = 1#1 := by simp [Ideal.cmp]
    rw [h1, h2, select_zero, select_one, zero_mul]
  · have h1 : Ideal.cmp .ogt v 0 = 1#1 := by simp [Ideal.cmp, h]
    have h2 : Ideal.cmp .oge v 0 = 1#1 := by simp [Ideal.cmp, h.le]
    rw [h1, h2, select_one, select_one]

/-- The body's loads and its store start at the origin of their blocks. -/
theorem zero_offsets : (![0, 0] : Fin 2 → Nat) = fun _ => 0 := funext fun a => by fin_cases a <;> rfl

/-- The index maps over the 20 grid points: the row windows (the aggregated table and the result) take block t at point
    t, the two bias rows and the classifier matrix are one block each. -/
theorem grid_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The classifier's output as one function of the four arrays the region reads. -/
abbrev headOf (c : Dev nD) : FVec Ideal S100000x3 .f32 :=
  Cert.GcnSpec.headRow (F := Ideal) (Cert.GcnSpec.actRow32 (V c main_v48) (V c main_v49)) (V c main_arg7) (V c main_v50)

/-- Row p of the aggregated table's block at point t is row 5000 t + p of the table. -/
theorem rows_block_apply (c : Dev nD) (t : Fin cfg2.N) (p : Fin 5000) (k : Fin 32) (r : Fin 100000)
    (hr : r.val = t.val * 5000 + p.val) :
    (iblk2 V c 0 t : Vec Ideal S5000x32 .f32) (ix2 p k) = (V c main_v48 : S100000x32.Idx → EReal) (ix2 r k) := by
  obtain ⟨e00, e01, -⟩ := grid_facts t
  unfold iblk2
  rw [View.read_apply]
  show V c main_v48 _ = V c main_v48 _
  congr 1
  funext a
  apply Fin.ext
  match a with
  | ⟨0, _⟩ => show win2_0.index t 0 * 5000 + 1 * p.val = r.val; rw [e00, hr]; omega
  | ⟨1, _⟩ => show win2_0.index t 1 * 32 + 1 * k.val = k.val; rw [e01]; omega

/-- The first bias row's block is the row. -/
theorem bias_block_apply (c : Dev nD) (t : Fin cfg2.N) (k : Fin 32) :
    (iblk2 V c 1 t : Vec Ideal S1x32 .f32) (ix2 0 k) = (V c main_v49 : S1x32.Idx → EReal) (ix2 0 k) := by
  obtain ⟨-, -, e10, e11, -⟩ := grid_facts t
  unfold iblk2
  rw [View.read_apply]
  show V c main_v49 _ = V c main_v49 _
  congr 1
  funext a
  apply Fin.ext
  match a with
  | ⟨0, _⟩ => show win2_1.index t 0 * 1 + 1 * 0 = 0; rw [e10]
  | ⟨1, _⟩ => show win2_1.index t 1 * 32 + 1 * k.val = k.val; rw [e11]; omega

/-- The classifier matrix's block is the matrix. -/
theorem matrix_block_apply (c : Dev nD) (t : Fin cfg2.N) (k : Fin 32) (q : Fin 3) :
    (iblk2 V c 2 t : Vec Ideal S32x3 .f32) (ix2 k q) = (V c main_arg7 : S32x3.Idx → EReal) (ix2 k q) := by
  obtain ⟨-, -, -, -, e20, e21, -⟩ := grid_facts t
  unfold iblk2
  rw [View.read_apply]
  show V c main_arg7 _ = V c main_arg7 _
  congr 1
  funext a
  apply Fin.ext
  match a with
  | ⟨0, _⟩ => show win2_2.index t 0 * 32 + 1 * k.val = k.val; rw [e20]; omega
  | ⟨1, _⟩ => show win2_2.index t 1 * 3 + 1 * q.val = q.val; rw [e21]; omega

/-- The second bias row's block is the row. -/
theorem bias2_block_apply (c : Dev nD) (t : Fin cfg2.N) (q : Fin 3) :
    (iblk2 V c 3 t : Vec Ideal S1x3 .f32) (ix2 0 q) = (V c main_v50 : S1x3.Idx → EReal) (ix2 0 q) := by
  obtain ⟨-, -, -, -, -, -, e30, e31, -⟩ := grid_facts t
  unfold iblk2
  rw [View.read_apply]
  show V c main_v50 _ = V c main_v50 _
  congr 1
  funext a
  apply Fin.ext
  match a with
  | ⟨0, _⟩ => show win2_3.index t 0 * 1 + 1 * 0 = 0; rw [e30]
  | ⟨1, _⟩ => show win2_3.index t 1 * 3 + 1 * q.val = q.val; rw [e31]; omega

/-- What point t writes back is block t of the classifier's output: row p of the block is row 5000 t + p of the table,
    where both sides are the same sum over the 32 hidden features once the two rectifiers are identified. -/
theorem flushed_eq (c : Dev nD) (t : Fin cfg2.N) :
    (dat2 (F := Ideal) V c).flushed 4 t = ((cfg2.win 4).blk t).view.read (Elt Ideal) (headOf V c) := by
  show (cfg2.win 4).cut (grid2.coords t) ((dat2 (F := Ideal) V c).after 4 t) = _
  rw [after2_4]
  unfold out2_4
  rw [View.canon_unit_zero zero_offsets]
  simp only [View.ld_unit_zero (S := S5000x32) zero_offsets, View.ld_unit_zero (S := S1x32) zero_offsets,
    View.ld_unit_zero (S := S32x3) zero_offsets, View.ld_unit_zero (S := S1x3) zero_offsets]
  obtain ⟨e00, e01, e10, e11, e20, e21, e30, e31, e40, e41⟩ := grid_facts t
  funext j
  obtain ⟨p, q, rfl⟩ : ∃ (p : Fin 5000) (q : Fin 3), j = ix2 p q := ⟨j 0, j 1, eq_ix2 j⟩
  have hN : t.val < 20 := Nat.lt_of_lt_of_eq t.isLt N_2
  have hr : t.val * 5000 + p.val < 100000 := by have := p.isLt; omega
  have hemb : ((cfg2.win 4).blk t).view.emb (ix2 p q) = (ix2 ⟨t.val * 5000 + p.val, hr⟩ q : S100000x3.Idx) := by
    funext a; apply Fin.ext
    match a with
    | ⟨0, _⟩ => show win2_4.index t 0 * 5000 + 1 * p.val = t.val * 5000 + p.val; rw [e40]; omega
    | ⟨1, _⟩ => show win2_4.index t 1 * 3 + 1 * q.val = q.val; rw [e41]; omega
  show k2_pay1 (F := Ideal) (iblk2 V c 0 t) (iblk2 V c 1 t) (iblk2 V c 2 t) (iblk2 V c 3 t) (ix2 p q)
    = headOf V c (((cfg2.win 4).blk t).view.emb (ix2 p q))
  rw [hemb]
  refine (head_block_apply (iblk2 V c 0 t) (iblk2 V c 1 t) (iblk2 V c 2 t) (iblk2 V c 3 t) p q).trans ?_
  refine Eq.trans ?_ (head_spec_apply (V c main_v48) (V c main_v49) (V c main_arg7) (V c main_v50) ⟨_, hr⟩ q).symm
  refine congrArg₂ (· + ·) ?_ ?_
  · refine Finset.sum_congr rfl fun k _ => ?_
    rw [rows_block_apply V c t p k ⟨_, hr⟩ rfl, bias_block_apply V c t k, matrix_block_apply V c t k q, actK_eq_actS]
  · exact bias2_block_apply V c t q

/-- An index of the result table lies in point t's block iff each coordinate lies in the block's range on its axis. -/
theorem mem_block (t : Fin cfg2.N) (i : S100000x3.Idx) :
    i ∈ ((cfg2.win 4).blk t).view.set ↔ ∀ a : Fin 2, win2_4.index t a * S5000x3.size a ≤ (i a).val
      ∧ (i a).val < win2_4.index t a * S5000x3.size a + S5000x3.size a := by
  show i ∈ ((View.whole main_v51).slice (win2_4.rect t)).set ↔ _
  rw [View.set_slice_whole, Rect.mem_set_unit]
  exact Iff.rfl

/-- Every row r of the result table lies in the block of point r / 5000. -/
theorem covered (i : S100000x3.Idx) :
    ∃ t : Fin cfg2.N, (cfg2.win 4).flush t = true ∧ i ∈ ((cfg2.win 4).blk t).view.set := by
  have hi0 : (i 0).val < 100000 := (i 0).isLt
  have hi1 : (i 1).val < 3 := (i 1).isLt
  obtain ⟨t, ht⟩ : ∃ t : Fin cfg2.N, t.val = (i 0).val / 5000 :=
    ⟨⟨(i 0).val / 5000, Nat.lt_of_lt_of_eq (show (i 0).val / 5000 < 20 by omega) N_2.symm⟩, rfl⟩
  obtain ⟨-, -, -, -, -, -, -, -, e40, e41⟩ := grid_facts t
  refine ⟨t, flush2_4 t, ?_⟩
  rw [mem_block]
  intro a
  match a with
  | ⟨0, _⟩ =>
    show win2_4.index t 0 * 5000 ≤ (i 0).val ∧ (i 0).val < win2_4.index t 0 * 5000 + 5000
    rw [e40, ht]; omega
  | ⟨1, _⟩ =>
    show win2_4.index t 1 * 3 ≤ (i 1).val ∧ (i 1).val < win2_4.index t 1 * 3 + 3
    rw [e41]; omega

end Region2

theorem region2_array (c : Dev nD) :
    (dat2 (F := Ideal) V c).arrAt 4 cfg2.N
      = Cert.GcnSpec.headRow (F := Ideal) (Cert.GcnSpec.actRow32 (V c main_v48) (V c main_v49)) (V c main_arg7) (V c main_v50) :=
  (dat2 (F := Ideal) V c).arrAt_eq_of_cover 4 (Region2.headOf V c) (fun t _ => Region2.flushed_eq V c t) Region2.covered

end Cert.KernelIdeal.RegionValue

end
-- ==== Proof.HostCoeff.lean ====
/- The host operations before the first pallas_call: the edge lists and the edges' coefficients. -/
import proofs.«409339_j59287728554038_2_alg».proof.Proof.Gen.KernelIdeal.Launch
import proofs.«409339_j59287728554038_2_alg».proof.Proof.GcnSpec

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-- The buffers after the 42 host operations that precede the first pallas_call, from contents W. -/
abbrev after0 (W : Valuation τ sig (Elt F)) : Valuation τ sig (Elt F) :=
  after hostOps0_2 (after hostOps0_1 (after hostOps0 W))

/-! ### The three lines, each read from any starting contents

The 42 operations come as three lines. Each line is read on its own, from contents V it does not look into: what a
result buffer holds after the line is the line's function of what its operand buffers held before it. -/

section Lines

variable (V : Valuation τ sig (Elt F))

/-- The last line: the product of the two gathers of main_v15 with the weights. -/
theorem line2_v31 :
    after hostOps0_2 V (Proc.devRef .tc main_v31)
      = mulf (mulf (Host.gather gather_S100000_S1700000x1_S1700000_n_0_n_n_0_1_1
                      (V (Proc.devRef .tc main_v15) : FVec F S100000 .f32)
                      (Cert.GcnSpec.wrapped (V (Proc.devRef .tc main_v5))))
                (V (Proc.devRef .tc main_v8) : FVec F S1700000 .f32))
          (Host.gather gather_S100000_S1700000x1_S1700000_n_0_n_n_0_1_1
            (V (Proc.devRef .tc main_v15) : FVec F S100000 .f32)
            (Cert.GcnSpec.wrapped (V (Proc.devRef .tc main_v6)))) := by
  after_results_simp
  rfl

/-- The middle line selects between its two operands and a broadcast constant. -/
theorem line1_v15 :
    after hostOps0_1 V (Proc.devRef .tc main_v15)
      = select (V (Proc.devRef .tc main_v13) : IVec S100000 1) (V (Proc.devRef .tc main_v14) : FVec F S100000 .f32)
          (broadcastInDim S100000 ![] bcast_S_S100000 (V (Proc.devRef .tc main_cst_2) : FVec F S_ .f32)) := by
  after_results
  rfl

theorem line1_v5 : after hostOps0_1 V (Proc.devRef .tc main_v5) = V (Proc.devRef .tc main_v5) := by
  after_results
theorem line1_v6 : after hostOps0_1 V (Proc.devRef .tc main_v6) = V (Proc.devRef .tc main_v6) := by
  after_results
theorem line1_v8 : after hostOps0_1 V (Proc.devRef .tc main_v8) = V (Proc.devRef .tc main_v8) := by
  after_results

/-- The first line: the edge lists, the weights, and the degree's two readings. -/
theorem line0_v5 : after hostOps0 V (Proc.devRef .tc main_v5) = Cert.GcnSpec.rowIdx (V (Proc.devRef .tc main_arg1)) := by
  after_results
  rfl
theorem line0_v6 : after hostOps0 V (Proc.devRef .tc main_v6) = Cert.GcnSpec.colIdx (V (Proc.devRef .tc main_arg1)) := by
  after_results
  rfl
theorem line0_v8 : after hostOps0 V (Proc.devRef .tc main_v8) = Cert.GcnSpec.weights (V (Proc.devRef .tc main_arg2)) := by
  after_results
  rfl
theorem line0_v13 :
    after hostOps0 V (Proc.devRef .tc main_v13)
      = cmpf .ogt (Cert.GcnSpec.degree (F := F) (Cert.GcnSpec.colIdx (V (Proc.devRef .tc main_arg1)))
                    (Cert.GcnSpec.weights (V (Proc.devRef .tc main_arg2))))
          (broadcastInDim S100000 ![] bcast_S_S100000 (constant S_ .f32 0x00000000#32)) := by
  after_results
  rfl
theorem line0_v14 :
    after hostOps0 V (Proc.devRef .tc main_v14)
      = Host.rsqrt (Cert.GcnSpec.degree (F := F) (Cert.GcnSpec.colIdx (V (Proc.devRef .tc main_arg1)))
                    (Cert.GcnSpec.weights (V (Proc.devRef .tc main_arg2)))) := by
  after_results
  rfl
theorem line0_cst2 :
    after hostOps0 V (Proc.devRef .tc main_cst_2) = (constant S_ .f32 0x00000000#32 : FVec F S_ .f32) := by
  after_results

end Lines

/-! ### The three lines one after the other -/

theorem s0_row (W : Valuation τ sig (Elt F)) :
    after0 W (Proc.devRef .tc main_v5) = Cert.GcnSpec.rowIdx (W (Proc.devRef .tc main_arg1)) := by
  show after hostOps0_2 (after hostOps0_1 (after hostOps0 W)) (Proc.devRef .tc main_v5) = _
  after_results
  rfl
theorem s0_col (W : Valuation τ sig (Elt F)) :
    after0 W (Proc.devRef .tc main_v6) = Cert.GcnSpec.colIdx (W (Proc.devRef .tc main_arg1)) := by
  show after hostOps0_2 (after hostOps0_1 (after hostOps0 W)) (Proc.devRef .tc main_v6) = _
  after_results
  rfl
/- The last line multiplies the two gathers of main_v15 and the weights; the middle line makes main_v15 the selection
   between the reciprocal root of the degree and zero, which is dinv; the first line makes the degree, the edge lists
   and the weights. -/
theorem s0_coeff (W : Valuation τ sig (Elt F)) :
    after0 W (Proc.devRef .tc main_v31)
      = Cert.GcnSpec.coeff (F := F) (Cert.GcnSpec.rowIdx (W (Proc.devRef .tc main_arg1))) (Cert.GcnSpec.colIdx (W (Proc.devRef .tc main_arg1)))
          (Cert.GcnSpec.weights (W (Proc.devRef .tc main_arg2))) := by
  show after hostOps0_2 (after hostOps0_1 (after hostOps0 W)) (Proc.devRef .tc main_v31) = _
  rw [line2_v31, line1_v15, line1_v5, line1_v6, line1_v8, line0_v5, line0_v6, line0_v8, line0_v13, line0_v14, line0_cst2]
  rfl

/-- A buffer that no operation of the three lines writes holds after them what it held before. -/
theorem after0_of_not_written (W : Valuation τ sig (Elt F)) (b : Ref sig .tc)
    (h0 : (hostOps0 (F := F)).Forall fun op => Proc.devRef .tc b ∉ op.writes)
    (h1 : (hostOps0_1 (F := F)).Forall fun op => Proc.devRef .tc b ∉ op.writes)
    (h2 : (hostOps0_2 (F := F)).Forall fun op => Proc.devRef .tc b ∉ op.writes) :
    after0 W (Proc.devRef .tc b) = W (Proc.devRef .tc b) := by
  show after hostOps0_2 (after hostOps0_1 (after hostOps0 W)) (Proc.devRef .tc b) = _
  rw [after_of_forall_not_mem _ _ (List.forall_iff_forall_mem.mp h2),
    after_of_forall_not_mem _ _ (List.forall_iff_forall_mem.mp h1),
    after_of_forall_not_mem _ _ (List.forall_iff_forall_mem.mp h0)]

/-- The arguments are written by none of these operations. -/
theorem s0_keep (W : Valuation τ sig (Elt F)) (b : Ref sig .tc)
    (hb : b = main_arg0 ∨ b = main_arg3 ∨ b = main_arg4 ∨ b = main_arg5 ∨ b = main_arg6 ∨ b = main_arg7 ∨ b = main_arg8) :
    after0 W (Proc.devRef .tc b) = W (Proc.devRef .tc b) := by
  rcases hb with rfl | rfl | rfl | rfl | rfl | rfl | rfl
  all_goals
    refine after0_of_not_written W _ ?_ ?_ ?_
    all_goals
      simp only [hostOps0, hostOps0_1, hostOps0_2, List.Forall, StableHlo.nullary_writes, StableHlo.unary_writes,
        StableHlo.binary_writes, StableHlo.ternary_writes, StableHlo.reshape_writes, Finset.mem_singleton]
      repeat' apply And.intro
      all_goals exact StableHlo.devRef_ne_of_ne (by decide)

end Cert.KernelIdeal.HostValue

end
-- ==== Proof.LibUnitAxis.lean ====
/-
  Index broadcasts and a conjunction over a unit axis, read at an index.

  A vector laid as a column, or repeated along columns, reads the vector's entry of the row; a scalar laid over any shape
  reads its one value; the conjunction of a one-bit column [M, 1] over its unit axis, from the initial value one, is the
  column's own bit.
-/
import Idealize.ShloMosaic.Lib.ValueIdx
import Idealize.ShloMosaic.Lib.Pipeline.Value
import Idealize.ShloMosaic.Lib.ValueLayout
import Idealize.ShloMosaic.PureOps.Reduce

noncomputable section

namespace Cert.LibUnitAxis

open Idealize.ShloMosaic Idealize.ShloMosaic.ValueIdx

variable {α : Type}

/-- A vector [M] laid as one column [M, 1], read at (p, 0): the vector at p. -/
theorem bcast_col_apply {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  refine broadcastInDim_apply _ h v _ (ix1 p) ?_
  intro a
  match a with
  | ⟨0, _⟩ =>
    show p.val = if M = 1 then 0 else p.val
    split
    · next h1 => have := p.isLt; omega
    · rfl

/-- A vector [M] repeated along C columns [M, C], read at (p, q): the vector at p. -/
theorem bcast_cols_apply {M C : Nat} (h : (⟨1, ![M]⟩ : Shape).BroadcastsInDim ⟨2, ![M, C]⟩ ![0])
    (v : (⟨1, ![M]⟩ : Shape).Idx → α) (p : Fin M) (q : Fin C) :
    broadcastInDim ⟨2, ![M, C]⟩ ![0] h v (ix2 p q) = v (ix1 p) := by
  refine broadcastInDim_apply _ h v _ (ix1 p) ?_
  intro a
  match a with
  | ⟨0, _⟩ =>
    show p.val = if M = 1 then 0 else p.val
    split
    · next h1 => have := p.isLt; omega
    · rfl

/-- A scalar constant laid over a column [M, 1] or any shape reads its one value everywhere. -/
theorem bcast_scalar_apply {t : Shape} (h : (⟨0, ![]⟩ : Shape).BroadcastsInDim t ![]) (v : (⟨0, ![]⟩ : Shape).Idx → α)
    (j : t.Idx) : broadcastInDim t ![] h v j = v ix0 := by
  exact broadcastInDim_apply _ h v j ix0 (fun a => a.elim0)

/-- THE MASK'S REDUCTION. The conjunction of a one-bit column [M, 1] over its unit axis, from an initial value 1, is
    at p the column's bit at (p, 0): one element, and 1 ∧ b = b. -/
theorem reduce_andi_unit_apply {M : Nat} {u : Shape} (x : IVec ⟨2, ![M, 1]⟩ 1) (init : u.Idx → BitVec 1)
    (h : (⟨2, ![M, 1]⟩ : Shape).ReducesTo [1] ⟨1, ![M]⟩) (hu : 0 < u.numel) (hinit : ∀ i, init i = 1#1) (p : Fin M) :
    Host.reduce IntOp.andi x init h hu (ix1 p) = x (ix2 p (0 : Fin 1)) := by
  rw [Host.reduce_eq_fold]
  have hset : (Finset.univ.filter fun i : (⟨2, ![M, 1]⟩ : Shape).Idx => h.drop i = ix1 p)
      = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      funext a
      match a with
      | ⟨0, _⟩ => exact Fin.ext hv.symm
      | ⟨1, _⟩ =>
        refine Fin.ext ?_
        have h1 : (i 1).val < 1 := (i 1).isLt
        show (i 1).val = 0
        omega
    · intro e
      subst e
      funext b
      match b with
      | ⟨0, _⟩ => exact Fin.ext hv
  rw [hset, Finset.fold_singleton, hinit]
  rcases BitVec.eq_zero_or_eq_one (x (ix2 p (0 : Fin 1))) with e | e <;> rw [e] <;> decide

end Cert.LibUnitAxis

end
-- ==== Proof.LibTakeFill.lean ====
/-
  A take of rows in fill mode is the plain gather when every index is a row number.

  jnp.take(x, idx, axis=0) on an [N, C] table, in its default mode, lowers to: wrap a negative index once (idx + N where
  idx < 0); gather the rows at the wrapped indices (the gather clamps its start index into [0, N - 1]); and replace by a
  fill value every row whose wrapped index lies outside [0, N - 1], the test being taken per index, reduced with "and"
  over the unit axis of the [M, 1] index column, and laid along the row. When every index already lies in [0, N), the
  wrap does nothing, the test holds for every row, and the whole expression is the gather at the wrapped indices.
  Stated with the lowering's own operations and its shape facts as variables, so it applies to a program's own text.
-/
import Idealize.ShloMosaic.PureOps.Ideal
import Idealize.ShloMosaic.PureOps.Reduce
import Idealize.ShloMosaic.Lib.ValueIdx
import Idealize.ShloMosaic.Lib.ValueLayout
import Idealize.ShloMosaic.Lib.Pipeline.Value
import proofs.«409339_j59287728554038_2_alg».proof.Proof.LibUnitAxis

noncomputable section

namespace Cert.LibTakeFill

open Idealize.ShloMosaic Idealize.ShloMosaic.ValueIdx

variable {N C M : ℕ}

abbrev S0 : Shape := ⟨0, ![]⟩
abbrev S1 : Shape := ⟨1, ![1]⟩
abbrev S11 : Shape := ⟨2, ![1, 1]⟩

/-- The wrapped index column: idx + n where idx < 0, else idx, laid as an [M, 1] column. (nWord is N as a 32-bit word.) -/
def wrapCol (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) : IVec ⟨2, ![M, 1]⟩ 32 :=
  broadcastInDim ⟨2, ![M, 1]⟩ ![0] bcol
    (select (cmpi .slt idx (broadcastInDim ⟨1, ![M]⟩ ![] b0 (constantI S0 32 0#32)))
      (addi idx (broadcastInDim ⟨1, ![M]⟩ ![] b0 (constantI S0 32 nWord))) idx)

/-- The in-range test of an index column, per row, laid along the C columns: 0 ≤ w ≤ maxWord, "and"-reduced over the unit axis. -/
def inRangeMask (maxWord : BitVec 32)
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (w : IVec ⟨2, ![M, 1]⟩ 32) : IVec ⟨2, ![M, C]⟩ 1 :=
  broadcastInDim ⟨2, ![M, C]⟩ ![0] bc
    (Host.reduce IntOp.andi
      (andi (cmpi .sge w (broadcastInDim ⟨2, ![M, 1]⟩ ![] b01 (constantI S0 32 0#32)))
            (cmpi .sle w (broadcastInDim ⟨2, ![M, 1]⟩ ![0, 1] b11 (broadcastInDim S11 ![1] b1 (constantI S1 32 maxWord)))))
      (constantI S0 1 1#1) rt h0)

/-- A constant array broadcast into any shape reads the constant everywhere. -/
theorem bcast_const {s t : Shape} (dims : Fin s.rank → Fin t.rank) (h : s.BroadcastsInDim t dims) {w : ℕ} (b : BitVec w)
    (j : t.Idx) : broadcastInDim t dims h (constantI s w b) j = b := rfl

/-- A word that is non-negative as a signed number is not below zero. -/
theorem cmpi_slt_zero_of_nonneg (a : BitVec 32) (h : 0 ≤ a.toInt) : IntOp.cmpi .slt a 0#32 = 0#1 := by
  have h0 : (0#32 : BitVec 32).toInt = 0 := by decide
  have hs : a.slt 0#32 = false := by
    simp only [BitVec.slt, h0, decide_eq_false_iff_not]; omega
  show BitVec.ofBool (a.slt 0#32) = 0#1
  rw [hs]; rfl

/-- A word that is non-negative as a signed number is at least zero. -/
theorem cmpi_sge_zero_of_nonneg (a : BitVec 32) (h : 0 ≤ a.toInt) : IntOp.cmpi .sge a 0#32 = 1#1 := by
  have h0 : (0#32 : BitVec 32).toInt = 0 := by decide
  have hs : (0#32 : BitVec 32).sle a = true := by
    simp only [BitVec.sle, h0, decide_eq_true_eq]; exact h
  show BitVec.ofBool ((0#32 : BitVec 32).sle a) = 1#1
  rw [hs]; rfl

/-- A signed comparison that holds of the values holds of the words. -/
theorem cmpi_sle_of_le (a b : BitVec 32) (h : a.toInt ≤ b.toInt) : IntOp.cmpi .sle a b = 1#1 := by
  have hs : a.sle b = true := by
    simp only [BitVec.sle, decide_eq_true_eq]; exact h
  show BitVec.ofBool (a.sle b) = 1#1
  rw [hs]; rfl

/-- Where every index is a row number, the wrapped index is the index itself. -/
theorem wrapCol_apply (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) (p : Fin M) (hp : 0 ≤ (idx (ix1 p)).toInt) :
    wrapCol nWord b0 bcol idx (ix2 p (0 : Fin 1)) = idx (ix1 p) := by
  unfold wrapCol
  rw [LibUnitAxis.bcast_col_apply, select_apply]
  have hc : cmpi .slt idx (broadcastInDim ⟨1, ![M]⟩ ![] b0 (constantI S0 32 0#32)) (ix1 p) = 0#1 :=
    cmpi_slt_zero_of_nonneg (idx (ix1 p)) hp
  rw [hc, select_zero]

/-- Where every wrapped index lies in [0, maxWord], the mask is all ones. -/
theorem inRangeMask_eq_ones (maxWord : BitVec 32)
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (w : IVec ⟨2, ![M, 1]⟩ 32)
    (hw : ∀ p : Fin M, 0 ≤ (w (ix2 p (0 : Fin 1))).toInt ∧ (w (ix2 p (0 : Fin 1))).toInt ≤ maxWord.toInt) :
    inRangeMask (C := C) maxWord b01 b1 b11 rt h0 bc w = fun _ => 1#1 := by
  funext j
  obtain ⟨p, q, rfl⟩ : ∃ (p : Fin M) (q : Fin C), j = ix2 p q := ⟨j 0, j 1, eq_ix2 j⟩
  unfold inRangeMask
  rw [LibUnitAxis.bcast_cols_apply,
    LibUnitAxis.reduce_andi_unit_apply _ (constantI S0 1 1#1) rt h0 (fun _ => rfl) p]
  show IntOp.andi (IntOp.cmpi .sge (w (ix2 p (0 : Fin 1))) 0#32) (IntOp.cmpi .sle (w (ix2 p (0 : Fin 1))) maxWord) = 1#1
  rw [cmpi_sge_zero_of_nonneg _ (hw p).1, cmpi_sle_of_le _ _ (hw p).2]
  rfl

/-- The take in fill mode: where every index lies in [0, maxWord] the filled select is its first branch, whatever the
    gathered array g and the fill f are. -/
theorem take_fill_eq {α : Type} (nWord maxWord : BitVec 32)
    (b0 : S0.BroadcastsInDim ⟨1, ![M]⟩ (![] : Fin 0 → Fin 1))
    (bcol : (⟨1, ![M]⟩ : Shape).BroadcastsInDim ⟨2, ![M, 1]⟩ (![0] : Fin 1 → Fin 2))
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (idx : IVec ⟨1, ![M]⟩ 32)
    (hidx : ∀ p : Fin M, 0 ≤ (idx (ix1 p)).toInt ∧ (idx (ix1 p)).toInt ≤ maxWord.toInt)
    (g f : (⟨2, ![M, C]⟩ : Shape).Idx → α) :
    select (inRangeMask (C := C) maxWord b01 b1 b11 rt h0 bc (wrapCol nWord b0 bcol idx)) g f = g := by
  have hw : ∀ p : Fin M, 0 ≤ (wrapCol nWord b0 bcol idx (ix2 p (0 : Fin 1))).toInt
      ∧ (wrapCol nWord b0 bcol idx (ix2 p (0 : Fin 1))).toInt ≤ maxWord.toInt := fun p => by
    rw [wrapCol_apply nWord b0 bcol idx p (hidx p).1]; exact hidx p
  rw [inRangeMask_eq_ones maxWord b01 b1 b11 rt h0 bc _ hw]
  funext j
  exact select_one (g j) (f j)

end Cert.LibTakeFill

end
-- ==== Proof.LibTakeWrap.lean ====
/-
  A take of rows in fill mode whose indices may be negative.

  jnp.take wraps a negative index once (idx + N where idx < 0) before it tests the range [0, N - 1] and fills the rows
  that fail the test. An index in [-N, N), read as a signed 32-bit integer, wraps into [0, N - 1]: a negative one gains N
  and N is far from the word's end, so the sum does not overflow; a non-negative one is left alone. So where every index
  lies in [-N, N) no row is filled, and the take is the plain gather at the wrapped indices.
-/
import proofs.«409339_j59287728554038_2_alg».proof.Proof.LibTakeFill
import Idealize.ShloMosaic.Lib.Affine

noncomputable section

namespace Cert.LibTakeWrap

open Idealize.ShloMosaic Idealize.ShloMosaic.ValueIdx Cert.LibTakeFill

variable {C M : ℕ}

/-- A signed word in [-n, n), n at most 2^30, wrapped once lies in [0, n - 1]. -/
theorem wrap_word_range (a nWord : BitVec 32) (hn1 : nWord.toInt ≤ 2 ^ 30)
    (hlo : -nWord.toInt ≤ a.toInt) (hhi : a.toInt < nWord.toInt) :
    0 ≤ (Scalar.select (IntOp.cmpi .slt a 0#32) (IntOp.addi a nWord) a).toInt
      ∧ (Scalar.select (IntOp.cmpi .slt a 0#32) (IntOp.addi a nWord) a).toInt ≤ nWord.toInt - 1 := by
  have h0 : (0#32 : BitVec 32).toInt = 0 := by decide
  by_cases hneg : a.toInt < 0
  · have hc : IntOp.cmpi .slt a 0#32 = 1#1 := IntOp.cmpi_slt.2 (by rw [h0]; exact hneg)
    rw [hc, select_one]
    have hadd : (IntOp.addi a nWord).toInt = a.toInt + nWord.toInt := by
      show (a + nWord).toInt = _
      rw [BitVec.toInt_add, Int.bmod_def]
      have e : ((2 : Nat) ^ 32) = 4294967296 := by norm_num
      have e30 : ((2 : Int) ^ 30) = 1073741824 := by norm_num
      rw [e30] at hn1
      rw [e]
      split <;> omega
    rw [hadd]
    have e30 : ((2 : Int) ^ 30) = 1073741824 := by norm_num
    rw [e30] at hn1
    constructor <;> omega
  · have hc : IntOp.cmpi .slt a 0#32 = 0#1 := cmpi_slt_zero_of_nonneg a (by omega)
    rw [hc, select_zero]
    constructor <;> omega

/-- The wrapped index column at row p: the index plus n where it is negative, the index itself otherwise. -/
theorem wrapCol_eq (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) (p : Fin M) :
    wrapCol nWord b0 bcol idx (ix2 p (0 : Fin 1))
      = Scalar.select (IntOp.cmpi .slt (idx (ix1 p)) 0#32) (IntOp.addi (idx (ix1 p)) nWord) (idx (ix1 p)) := by
  unfold wrapCol
  rw [LibUnitAxis.bcast_col_apply, select_apply]
  rfl

/-- THE TAKE IN FILL MODE, INDICES IN [-N, N): the filled select is its gathered branch, whatever the gathered array g
    and the fill f are. (nWord is N as a word, maxWord is N - 1.) -/
theorem take_fill_eq_of_signed {α : Type} (nWord maxWord : BitVec 32) (hn1 : nWord.toInt ≤ 2 ^ 30)
    (hmax : maxWord.toInt = nWord.toInt - 1)
    (b0 : S0.BroadcastsInDim ⟨1, ![M]⟩ (![] : Fin 0 → Fin 1))
    (bcol : (⟨1, ![M]⟩ : Shape).BroadcastsInDim ⟨2, ![M, 1]⟩ (![0] : Fin 1 → Fin 2))
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (idx : IVec ⟨1, ![M]⟩ 32)
    (hidx : ∀ p : Fin M, -nWord.toInt ≤ (idx (ix1 p)).toInt ∧ (idx (ix1 p)).toInt < nWord.toInt)
    (g f : (⟨2, ![M, C]⟩ : Shape).Idx → α) :
    select (inRangeMask (C := C) maxWord b01 b1 b11 rt h0 bc (wrapCol nWord b0 bcol idx)) g f = g := by
  have hw : ∀ p : Fin M, 0 ≤ (wrapCol nWord b0 bcol idx (ix2 p (0 : Fin 1))).toInt
      ∧ (wrapCol nWord b0 bcol idx (ix2 p (0 : Fin 1))).toInt ≤ maxWord.toInt := fun p => by
    rw [wrapCol_eq nWord b0 bcol idx p, hmax]
    exact wrap_word_range _ nWord hn1 (hidx p).1 (hidx p).2
  rw [inRangeMask_eq_ones maxWord b01 b1 b11 rt h0 bc _ hw]
  funext j
  exact select_one (g j) (f j)

end Cert.LibTakeWrap

end
-- ==== Proof.HostAgg128.lean ====
/- The host operations between the first and the second pallas_call: the first aggregation. -/
import proofs.«409339_j59287728554038_2_alg».proof.Proof.Gen.KernelIdeal.Launch
import proofs.«409339_j59287728554038_2_alg».proof.Proof.GcnSpec
import proofs.«409339_j59287728554038_2_alg».proof.Proof.LibTakeWrap

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-- The buffers after the 31 host operations between the first and the second pallas_call, from contents W. -/
abbrev after1 (W : Valuation τ sig (Elt F)) : Valuation τ sig (Elt F) :=
  after hostOps1_1 (after hostOps1 W)

/-- Contents moved to a typed reference's buffer type and back are the contents. -/
theorem ofBuf_toBuf {sig : RefSig} {T : BufTy} {Val : EltTy → Type} (x : StableHlo.TRef sig T) (v : T.Contents Val) :
    x.ofBuf (x.toBuf (Val := Val) v) = v := by
  obtain ⟨r, h, a, b⟩ := x
  subst h
  rfl

set_option maxRecDepth 2048 in
set_option maxHeartbeats 1600000 in
/-- With the sources in range the filled take is the plain gather, and the stretch is one aggregation of the table
    in main_v32 over the edge lists and coefficients it finds in main_v5, main_v6 and main_v31. -/
theorem s1_agg (W : Valuation τ sig (Elt F)) (hrow : Cert.GcnSpec.InRange (W (Proc.devRef .tc main_v5))) :
    after1 W (Proc.devRef .tc main_v39)
      = Cert.GcnSpec.agg128 (F := F) (W (Proc.devRef .tc main_v32)) (W (Proc.devRef .tc main_v5)) (W (Proc.devRef .tc main_v6))
          (W (Proc.devRef .tc main_v31)) := by
  show after hostOps1_1 (after hostOps1 W) (Proc.devRef .tc main_v39) = _
  after_results_simp
  unfold Cert.GcnSpec.agg128 Cert.GcnSpec.asColumn Cert.GcnSpec.wrapped
  -- the zero table, the target column and the coefficient columns are the specification's own text
  refine congrArg (fun t => Host.scatterAdd scatter_S100000x128_S1700000x1_S1700000x128_1_0_0_1
      (broadcastInDim S100000x128 ![] bcast_S_S100000x128 (constant S_ FTy.f32 0#32))
      (broadcastInDim S1700000x1 ![0] bcast_S1700000_S1700000x1_0 (W (Proc.tc.devRef main_v6)))
      (mulf t (broadcastInDim S1700000x128 ![0, 1] bcast_S1700000x1_S1700000x128_0_1
        (broadcastInDim S1700000x1 ![0] bcast_S1700000_S1700000x1_0 (W (Proc.tc.devRef main_v31)))))) ?_
  -- the typed references of the inlined take carry their buffers' own types: the transports are the identity
  have e5 : (TRef.of main_v5 : TRef sig ⟨S1700000, .i32⟩).ofBuf (Val := Elt F) (W (Proc.devRef .tc main_v5))
      = W (Proc.devRef .tc main_v5) := rfl
  have e32 : (TRef.of main_v32 : TRef sig ⟨S100000x128, .f32⟩).ofBuf (Val := Elt F) (W (Proc.devRef .tc main_v32))
      = W (Proc.devRef .tc main_v32) := rfl
  have e33 : ∀ v : (⟨S1700000x128, .f32⟩ : BufTy).Contents (Elt F),
      (TRef.of main_v33 : TRef sig ⟨S1700000x128, .f32⟩).toBuf (Val := Elt F) v = v := fun _ => rfl
  simp only [ofBuf_toBuf, e5, e32, e33]
  -- every source index lies in [-100000, 100000): the filled take is its gathered branch
  have hN : (100000#32 : BitVec 32).toInt = 100000 := by decide
  have hn1 : (100000#32 : BitVec 32).toInt ≤ 2 ^ 30 := by rw [hN]; norm_num
  have hmax : (99999#32 : BitVec 32).toInt = (100000#32 : BitVec 32).toInt - 1 := by decide
  have hidx : ∀ p : Fin 1700000,
      -(100000#32 : BitVec 32).toInt ≤ ((W (Proc.devRef .tc main_v5) : IVec S1700000 32) (ValueIdx.ix1 p)).toInt
        ∧ ((W (Proc.devRef .tc main_v5) : IVec S1700000 32) (ValueIdx.ix1 p)).toInt < (100000#32 : BitVec 32).toInt := by
    intro p; rw [hN]; exact hrow p
  have key := Cert.LibTakeWrap.take_fill_eq_of_signed (C := 128) (M := 1700000) 100000#32 99999#32 hn1 hmax
    bcast_S_S1700000 bcast_S1700000_S1700000x1_0 bcast_S_S1700000x1 bcast_S1_S1x1_1 bcast_S1x1_S1700000x1_0_1
    reducesTo_S1700000x1_S1700000_d1 h_S_ bcast_S1700000_S1700000x128_0 (W (Proc.devRef .tc main_v5)) hidx
    (Host.gather gather_S100000x128_S1700000x1_S1700000x128_1_0_n_n_0_1_1128 (W (Proc.devRef .tc main_v32))
      (Cert.LibTakeFill.wrapCol 100000#32 bcast_S_S1700000 bcast_S1700000_S1700000x1_0 (W (Proc.devRef .tc main_v5))))
    (broadcastInDim S1700000x128 ![] bcast_S_S1700000x128 (constant S_ FTy.f32 0x7FC00000#32))
  exact key
open Idealize.ShloMosaic.ValueIdx in
/-- A vector of length b cast to a [1, b] row reads, at (u, q), the vector at q: the row-major position of (u, q) in a
    one-row array is q. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

open Idealize.ShloMosaic.ValueIdx in
/-- A vector of length b laid along axis 1 of a [1, b] row reads, at (u, q), the vector at q. -/
theorem bcast_row_apply {α : Type} {b : ℕ} (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) := by
  refine broadcastInDim_apply _ h v _ (ix1 q) ?_
  intro a
  match a with
  | ⟨0, _⟩ =>
    show q.val = if b = 1 then 0 else q.val
    split
    · next h1 => have := q.isLt; omega
    · rfl

open Idealize.ShloMosaic.ValueIdx in
/-- The bias reshaped to a [1, 128] row is the bias laid along axis 1. -/
theorem s1_bias (W : Valuation τ sig (Elt F)) :
    after1 W (Proc.devRef .tc main_v40)
      = broadcastInDim Cert.ReferenceIdeal.S1x128 ![1] Cert.ReferenceIdeal.Facts₀.bcast_S128_S1x128_1 (W (Proc.devRef .tc main_arg4)) := by
  show after hostOps1_1 (after hostOps1 W) (Proc.devRef .tc main_v40) = _
  -- no operation of the take writes the bias vector
  have h4 : after hostOps1 W (Proc.devRef .tc main_arg4) = W (Proc.devRef .tc main_arg4) :=
    StableHlo.after_of_forall_not_mem (b := Proc.devRef .tc main_arg4) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  generalize after hostOps1 W = V at h4 ⊢
  after_results
  rw [h4]
  -- both sides read the bias at the column coordinate
  funext j
  obtain ⟨u, q, rfl⟩ : ∃ (u : Fin 1) (q : Fin 128), j = ix2 u q := ⟨j 0, j 1, eq_ix2 j⟩
  exact (shapeCast_row_apply _ _ u q).trans (bcast_row_apply _ _ u q).symm

/-- The edge lists, the coefficients and the later layers' parameters are written by none of the 31 operations. -/
theorem s1_keep (W : Valuation τ sig (Elt F)) (b : Ref sig .tc)
    (hb : b = main_v5 ∨ b = main_v6 ∨ b = main_v31 ∨ b = main_arg5 ∨ b = main_arg6 ∨ b = main_arg7 ∨ b = main_arg8) :
    after1 W (Proc.devRef .tc b) = W (Proc.devRef .tc b) := by
  show after hostOps1_1 (after hostOps1 W) (Proc.devRef .tc b) = _
  rcases hb with rfl | rfl | rfl | rfl | rfl | rfl | rfl <;>
  · refine (StableHlo.after_of_forall_not_mem _ _ (List.forall_iff_forall_mem.mp ?_)).trans
      (StableHlo.after_of_forall_not_mem _ _ (List.forall_iff_forall_mem.mp ?_))
    all_goals
      simp only [hostOps1, hostOps1_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)

end Cert.KernelIdeal.HostValue

end
-- ==== Proof.HostAgg32.lean ====
/- The host operations between the second and the third pallas_call: the second aggregation. -/
import proofs.«409339_j59287728554038_2_alg».proof.Proof.Gen.KernelIdeal.Launch
import proofs.«409339_j59287728554038_2_alg».proof.Proof.GcnSpec
import proofs.«409339_j59287728554038_2_alg».proof.Proof.LibTakeWrap

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-- The buffers after the 32 host operations between the second and the third pallas_call, from contents W. -/
abbrev after2 (W : Valuation τ sig (Elt F)) : Valuation τ sig (Elt F) :=
  after hostOps2_1 (after hostOps2 W)

namespace Agg32

/-- Contents moved to a typed reference's buffer type and back are the contents. -/
theorem ofBuf_toBuf {sig : RefSig} {T : BufTy} {Val : EltTy → Type} (x : StableHlo.TRef sig T) (v : T.Contents Val) :
    x.ofBuf (x.toBuf (Val := Val) v) = v := by
  obtain ⟨r, h, a, b⟩ := x
  subst h
  rfl

open Idealize.ShloMosaic.ValueIdx in
/-- A vector of length b cast to a [1, b] row reads, at (u, q), the vector at q: the row-major position of (u, q) in a
    one-row array is q. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

open Idealize.ShloMosaic.ValueIdx in
/-- A vector of length b laid along axis 1 of a [1, b] row reads, at (u, q), the vector at q. -/
theorem bcast_row_apply {α : Type} {b : ℕ} (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) := by
  refine broadcastInDim_apply _ h v _ (ix1 q) ?_
  intro a
  match a with
  | ⟨0, _⟩ =>
    show q.val = if b = 1 then 0 else q.val
    split
    · next h1 => have := q.isLt; omega
    · rfl

open Idealize.ShloMosaic.ValueIdx in
/-- A vector cast to a one-row array is the vector laid along axis 1 of the row. -/
theorem shapeCast_row_eq_bcast {α : Type} {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext j
  obtain ⟨u, q, rfl⟩ : ∃ (u : Fin 1) (q : Fin b), j = ix2 u q := ⟨j 0, j 1, eq_ix2 j⟩
  exact (shapeCast_row_apply x hc u q).trans (bcast_row_apply hb x u q).symm

variable {F : FTy → Type} [FloatOps F]

/-- None of the 23 operations of the take writes buffer b, when b is none of their result buffers. -/
theorem keep_take (W : Valuation τ sig (Elt F)) (b : Ref sig .tc)
    (hb : b = main_arg6 ∨ b = main_arg7 ∨ b = main_arg8) :
    after hostOps2 W (Proc.devRef .tc b) = W (Proc.devRef .tc b) := by
  rcases hb with rfl | rfl | rfl <;>
  · refine StableHlo.after_of_forall_not_mem _ _ (List.forall_iff_forall_mem.mp ?_)
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

end Agg32

set_option maxRecDepth 2048 in
set_option maxHeartbeats 1600000 in
/-- With the sources in range the filled take is the plain gather, and the stretch is one aggregation of the table
    in main_v41 over the edge lists and coefficients it finds in main_v5, main_v6 and main_v31. -/
theorem s2_agg (W : Valuation τ sig (Elt F)) (hrow : Cert.GcnSpec.InRange (W (Proc.devRef .tc main_v5))) :
    after2 W (Proc.devRef .tc main_v48)
      = Cert.GcnSpec.agg32 (F := F) (W (Proc.devRef .tc main_v41)) (W (Proc.devRef .tc main_v5)) (W (Proc.devRef .tc main_v6))
          (W (Proc.devRef .tc main_v31)) := by
  show after hostOps2_1 (after hostOps2 W) (Proc.devRef .tc main_v48) = _
  after_results_simp
  unfold Cert.GcnSpec.agg32 Cert.GcnSpec.asColumn Cert.GcnSpec.wrapped
  -- the zero table, the target column and the coefficient columns are the specification's own text
  refine congrArg (fun t => Host.scatterAdd scatter_S100000x32_S1700000x1_S1700000x32_1_0_0_1
      (broadcastInDim S100000x32 ![] bcast_S_S100000x32 (constant S_ FTy.f32 0#32))
      (broadcastInDim S1700000x1 ![0] bcast_S1700000_S1700000x1_0 (W (Proc.tc.devRef main_v6)))
      (mulf t (broadcastInDim S1700000x32 ![0, 1] bcast_S1700000x1_S1700000x32_0_1
        (broadcastInDim S1700000x1 ![0] bcast_S1700000_S1700000x1_0 (W (Proc.tc.devRef main_v31)))))) ?_
  -- the typed references of the inlined take carry their buffers' own types: the transports are the identity
  have e5 : (TRef.of main_v5 : TRef sig ⟨S1700000, .i32⟩).ofBuf (Val := Elt F) (W (Proc.devRef .tc main_v5))
      = W (Proc.devRef .tc main_v5) := rfl
  have e41 : (TRef.of main_v41 : TRef sig ⟨S100000x32, .f32⟩).ofBuf (Val := Elt F) (W (Proc.devRef .tc main_v41))
      = W (Proc.devRef .tc main_v41) := rfl
  have e42 : ∀ v : (⟨S1700000x32, .f32⟩ : BufTy).Contents (Elt F),
      (TRef.of main_v42 : TRef sig ⟨S1700000x32, .f32⟩).toBuf (Val := Elt F) v = v := fun _ => rfl
  simp only [Agg32.ofBuf_toBuf, e5, e41, e42]
  -- every source index lies in [-100000, 100000): the filled take is its gathered branch
  have hN : (100000#32 : BitVec 32).toInt = 100000 := by decide
  have hn1 : (100000#32 : BitVec 32).toInt ≤ 2 ^ 30 := by rw [hN]; norm_num
  have hmax : (99999#32 : BitVec 32).toInt = (100000#32 : BitVec 32).toInt - 1 := by decide
  have hidx : ∀ p : Fin 1700000,
      -(100000#32 : BitVec 32).toInt ≤ ((W (Proc.devRef .tc main_v5) : IVec S1700000 32) (ValueIdx.ix1 p)).toInt
        ∧ ((W (Proc.devRef .tc main_v5) : IVec S1700000 32) (ValueIdx.ix1 p)).toInt < (100000#32 : BitVec 32).toInt := by
    intro p; rw [hN]; exact hrow p
  exact Cert.LibTakeWrap.take_fill_eq_of_signed (C := 32) (M := 1700000) 100000#32 99999#32 hn1 hmax
    bcast_S_S1700000 bcast_S1700000_S1700000x1_0 bcast_S_S1700000x1 bcast_S1_S1x1_1 bcast_S1x1_S1700000x1_0_1
    reducesTo_S1700000x1_S1700000_d1 h_S_ bcast_S1700000_S1700000x32_0 (W (Proc.devRef .tc main_v5)) hidx
    (Host.gather gather_S100000x32_S1700000x1_S1700000x32_1_0_n_n_0_1_132 (W (Proc.devRef .tc main_v41))
      (Cert.LibTakeFill.wrapCol 100000#32 bcast_S_S1700000 bcast_S1700000_S1700000x1_0 (W (Proc.devRef .tc main_v5))))
    (broadcastInDim S1700000x32 ![] bcast_S_S1700000x32 (constant S_ FTy.f32 0x7FC00000#32))
theorem s2_bias (W : Valuation τ sig (Elt F)) :
    after2 W (Proc.devRef .tc main_v49)
      = broadcastInDim Cert.ReferenceIdeal.S1x32 ![1] Cert.ReferenceIdeal.Facts₀.bcast_S32_S1x32_1 (W (Proc.devRef .tc main_arg6)) := by
  show after hostOps2_1 (after hostOps2 W) (Proc.devRef .tc main_v49) = _
  -- no operation of the take writes the bias vector
  have h4 := Agg32.keep_take W main_arg6 (by simp)
  generalize after hostOps2 W = V at h4 ⊢
  after_results
  rw [h4]
  -- a vector cast to a one-row array is the vector laid along the row
  exact Agg32.shapeCast_row_eq_bcast _ _ _
theorem s2_headBias (W : Valuation τ sig (Elt F)) :
    after2 W (Proc.devRef .tc main_v50)
      = broadcastInDim Cert.ReferenceIdeal.S1x3 ![1] Cert.ReferenceIdeal.Facts₀.bcast_S3_S1x3_1 (W (Proc.devRef .tc main_arg8)) := by
  show after hostOps2_1 (after hostOps2 W) (Proc.devRef .tc main_v50) = _
  -- no operation of the take writes the bias vector
  have h4 := Agg32.keep_take W main_arg8 (by simp)
  generalize after hostOps2 W = V at h4 ⊢
  after_results
  rw [h4]
  -- a vector cast to a one-row array is the vector laid along the row
  exact Agg32.shapeCast_row_eq_bcast _ _ _
theorem s2_keep (W : Valuation τ sig (Elt F)) (b : Ref sig .tc) (hb : b = main_arg7) :
    after2 W (Proc.devRef .tc b) = W (Proc.devRef .tc b) := by
  subst hb
  show after hostOps2_1 (after hostOps2 W) (Proc.devRef .tc main_arg7) = _
  refine (StableHlo.after_of_forall_not_mem _ _ (List.forall_iff_forall_mem.mp ?_)).trans (Agg32.keep_take W main_arg7 (by simp))
  simp only [hostOps2_1, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

end Cert.KernelIdeal.HostValue

end
-- ==== Proof.RowRange.lean ====
/- The added precondition read back: every source index lies in [-100000, 100000). -/
import proofs.«409339_j59287728554038_2_alg».proof.Defs
import proofs.«409339_j59287728554038_2_alg».proof.Proof.Gen.Pre_finite_inputs
import proofs.«409339_j59287728554038_2_alg».proof.Proof.Gen.KernelIdeal
import proofs.«409339_j59287728554038_2_alg».proof.Proof.GcnSpec
import Idealize.ShloMosaic.Lib.ReduceAll
import Idealize.ShloMosaic.Lib.Pipeline.Value

noncomputable section

namespace Cert.RowRange

open Idealize.ShloMosaic Idealize.SL.Sem

/-- A rank-zero array has one index. -/
instance : Subsingleton Cert.Pre_finite_inputs.S_.Idx := ⟨fun a b => funext fun d => d.elim0⟩

/-- The word -100000, read as a signed integer. -/
theorem toInt_lo : (4294867296#32 : BitVec 32).toInt = -100000 := by decide

/-- The word 100000, read as a signed integer. -/
theorem toInt_hi : (100000#32 : BitVec 32).toInt = 100000 := by decide

/-- A position below 100000, as a 32-bit word, reads back as itself. -/
theorem toInt_ofNat_small (n : Nat) (hn : n < 100000) : (BitVec.ofNat 32 n).toInt = (n : Int) := by
  unfold BitVec.toInt
  rw [BitVec.toNat_ofNat]
  omega

open Cert.Pre_finite_inputs Cert.Pre_finite_inputs.Facts in
/-- The precondition's last conjunct, read back entry by entry: the conjunction of the nine tests is one, so the last
    test is; that test is "all" of a vector of bits, so every bit is one; and a bit is the conjunction of
    -100000 <= entry and entry < 100000 as signed words. So every entry of row 0 of the edge table is in range. -/
theorem pre_row (x : FVec Ideal S100000x128 .f32) (ei : IVec S2x1600000 32) (ew : FVec Ideal S1600000 .f32)
    (W1 : FVec Ideal S128x128 .f32) (b1 : FVec Ideal S128 .f32) (W2 : FVec Ideal S128x32 .f32) (b2 : FVec Ideal S32 .f32)
    (Wc : FVec Ideal S32x3 .f32) (bc : FVec Ideal S3 .f32)
    (h : Cert.Pre_finite_inputs.fn (F := Ideal) x ei ew W1 b1 W2 b2 Wc bc = fun _ => 1#1) (i : S1600000.Idx) :
    -100000 ≤ ((shapeCast S1600000 (extractStridedSlice S1x1600000 ![0, 0] ei slices_S2x1600000_S1x1600000_0_0)
        shapeCasts_S1x1600000_S1600000) i).toInt
      ∧ ((shapeCast S1600000 (extractStridedSlice S1x1600000 ![0, 0] ei slices_S2x1600000_S1x1600000_0_0)
        shapeCasts_S1x1600000_S1600000) i).toInt < 100000 := by
  have h0 := congrFun h ValueIdx.ix0
  dsimp only [Cert.Pre_finite_inputs.fn, Cert.Pre_finite_inputs.fn_part1, Cert.Pre_finite_inputs.fn_part2] at h0
  -- the last conjunct, then its entry i, then the two comparisons
  have h48 := (IntOp.andi_eq_one.1 h0).2
  have hall := Host.reduce_andi_all _ _ _ _ _ h48 i
  obtain ⟨hge, hlt⟩ := IntOp.andi_eq_one.1 hall
  have hge' := IntOp.cmpi_sge.1 hge
  have hlt' := IntOp.cmpi_slt.1 hlt
  -- a broadcast constant read at an entry is the constant
  have hge'' : (4294867296#32 : BitVec 32).toInt ≤ _ := hge'
  have hlt'' : _ < (100000#32 : BitVec 32).toInt := hlt'
  rw [toInt_lo] at hge''
  rw [toInt_hi] at hlt''
  exact ⟨hge'', hlt''⟩

/-- Under the precondition the sources (row 0 of the edge table, then the self loops) are all in range. -/
theorem rowIdx_inRange (m : (ℓ : Loc Cert.KernelIdeal.nD Cert.KernelIdeal.τ Cert.KernelIdeal.sig) → Buf (Elt Ideal) ℓ)
    (h : Cert.Pre_KernelIdeal m) (c : Dev Cert.KernelIdeal.nD) :
    Cert.GcnSpec.InRange (Cert.GcnSpec.rowIdx (m ((c.tc : Thread Cert.KernelIdeal.nD Cert.KernelIdeal.τ).loc Cert.KernelIdeal.main_arg1))) := by
  have hrow := pre_row _ _ _ _ _ _ _ _ _ (h c)
  generalize m ((c.tc : Thread Cert.KernelIdeal.nD Cert.KernelIdeal.τ).loc Cert.KernelIdeal.main_arg1) = ei at hrow ⊢
  intro p
  by_cases hp : p.val < 1600000
  · -- an entry of row 0 of the edge table
    have e : Cert.GcnSpec.rowIdx ei (ValueIdx.ix1 p)
        = (shapeCast Cert.ReferenceIdeal.S1600000 (extractStridedSlice Cert.ReferenceIdeal.S1x1600000 ![0, 0] ei Cert.ReferenceIdeal.Facts₀.slices_S2x1600000_S1x1600000_0_0)
            Cert.ReferenceIdeal.Facts₀.shapeCasts_S1x1600000_S1600000) (ValueIdx.ix1 ⟨p.val, hp⟩) :=
      concatenate_pair_apply_left (t := Cert.ReferenceIdeal.S1700000) (s₁ := Cert.ReferenceIdeal.S1600000) (s₂ := Cert.ReferenceIdeal.S100000) 0 _ _ _ (ValueIdx.ix1 p) rfl
        (ValueIdx.ix1 ⟨p.val, hp⟩) (fun b => by match b with | ⟨0, _⟩ => rfl)
    rw [e]
    exact hrow (ValueIdx.ix1 ⟨p.val, hp⟩)
  · -- a self loop: the node's own number, p - 1600000 < 100000
    have hq : p.val - 1600000 < 100000 := by have := p.isLt; omega
    have e : Cert.GcnSpec.rowIdx ei (ValueIdx.ix1 p) = iotaInDim Cert.ReferenceIdeal.S100000 32 0 (ValueIdx.ix1 ⟨p.val - 1600000, hq⟩) :=
      concatenate_pair_apply_right (t := Cert.ReferenceIdeal.S1700000) (s₁ := Cert.ReferenceIdeal.S1600000) (s₂ := Cert.ReferenceIdeal.S100000) 0 _ _ _ (ValueIdx.ix1 p) rfl rfl
        (ValueIdx.ix1 ⟨p.val - 1600000, hq⟩)
        (fun b hb => absurd (by match b with | ⟨0, _⟩ => rfl) hb)
        (by show p.val - 1600000 + 1600000 = p.val; omega)
    rw [e]
    show -100000 ≤ (BitVec.ofNat 32 (p.val - 1600000)).toInt ∧ (BitVec.ofNat 32 (p.val - 1600000)).toInt < 100000
    rw [toInt_ofNat_small _ hq]
    omega

end Cert.RowRange

end
-- ==== Proof.KernelValue.lean ====
/- The kernel program's result buffer, after its three pallas_calls and the host operations around them, holds the
   network's value of the argument arrays: the buffers' contents are followed from one boundary of the program to the
   next — host operations read as the specification's stages, each pallas_call's output array as a matrix product. -/
import proofs.«409339_j59287728554038_2_alg».proof.Proof.KernelRun
import proofs.«409339_j59287728554038_2_alg».proof.Proof.RegionMatmul
import proofs.«409339_j59287728554038_2_alg».proof.Proof.RegionLayer2
import proofs.«409339_j59287728554038_2_alg».proof.Proof.RegionHead
import proofs.«409339_j59287728554038_2_alg».proof.Proof.HostCoeff
import proofs.«409339_j59287728554038_2_alg».proof.Proof.HostAgg128
import proofs.«409339_j59287728554038_2_alg».proof.Proof.HostAgg32
import proofs.«409339_j59287728554038_2_alg».proof.Proof.RowRange

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.HostValue Cert.KernelIdeal.RegionValue

variable (m : (ℓ : Loc nD τ sig) → Buf (Elt Ideal) ℓ) (ρ : Dev nD → PrngReg) (c : Dev nD)

/-- An argument array as launched. -/
abbrev launched (b : Ref sig .tc) : Buf (Elt Ideal) ((c : Thread nD τ).loc b) := m ((c : Thread nD τ).loc b)

/-! ## At the first pallas_call's entry -/

theorem W3_row : W3 m ρ c (Proc.devRef .tc main_v5) = Cert.GcnSpec.rowIdx (launched m c main_arg1) := s0_row (W0 m ρ c)
theorem W3_col : W3 m ρ c (Proc.devRef .tc main_v6) = Cert.GcnSpec.colIdx (launched m c main_arg1) := s0_col (W0 m ρ c)
theorem W3_coeff : W3 m ρ c (Proc.devRef .tc main_v31)
    = Cert.GcnSpec.coeff (F := Ideal) (Cert.GcnSpec.rowIdx (launched m c main_arg1)) (Cert.GcnSpec.colIdx (launched m c main_arg1)) (Cert.GcnSpec.weights (launched m c main_arg2)) :=
  s0_coeff (W0 m ρ c)
theorem W3_arg (b : Ref sig .tc)
    (hb : b = main_arg0 ∨ b = main_arg3 ∨ b = main_arg4 ∨ b = main_arg5 ∨ b = main_arg6 ∨ b = main_arg7 ∨ b = main_arg8) :
    W3 m ρ c (Proc.devRef .tc b) = launched m c b := s0_keep (W0 m ρ c) b hb

/-! ## After the first pallas_call -/

theorem W4_xw : W4 m ρ c (Proc.devRef .tc main_v32)
    = Cert.GcnSpec.mm1 (F := Ideal) (launched m c main_arg0) (launched m c main_arg3) := by
  refine ((W4_arr m ρ c 2).trans (region0_array (V3 m ρ) c)).trans ?_
  show Cert.GcnSpec.mm1 (F := Ideal) (W3 m ρ c (Proc.devRef .tc main_arg0)) (W3 m ρ c (Proc.devRef .tc main_arg3)) = _
  rw [W3_arg m ρ c main_arg0 (by simp), W3_arg m ρ c main_arg3 (by simp)]

/-- A buffer that is none of the first pallas_call's arrays is as at its entry. -/
theorem W4_keep (b : Ref sig .tc) (hb : ∀ w, Pipeline.arrRef spec0 w ≠ b) :
    W4 m ρ c (Proc.devRef .tc b) = W3 m ρ c (Proc.devRef .tc b) := W4_of_ne m ρ c b hb

/-! ## At the second pallas_call's entry -/

theorem W4_row : W4 m ρ c (Proc.devRef .tc main_v5) = Cert.GcnSpec.rowIdx (launched m c main_arg1) :=
  (W4_keep m ρ c main_v5 (by decide)).trans (W3_row m ρ c)
theorem W4_col : W4 m ρ c (Proc.devRef .tc main_v6) = Cert.GcnSpec.colIdx (launched m c main_arg1) :=
  (W4_keep m ρ c main_v6 (by decide)).trans (W3_col m ρ c)
theorem W4_coeff : W4 m ρ c (Proc.devRef .tc main_v31)
    = Cert.GcnSpec.coeff (F := Ideal) (Cert.GcnSpec.rowIdx (launched m c main_arg1)) (Cert.GcnSpec.colIdx (launched m c main_arg1)) (Cert.GcnSpec.weights (launched m c main_arg2)) :=
  (W4_keep m ρ c main_v31 (by decide)).trans (W3_coeff m ρ c)
theorem W4_arg (b : Ref sig .tc) (hb : b = main_arg4 ∨ b = main_arg5 ∨ b = main_arg6 ∨ b = main_arg7 ∨ b = main_arg8) :
    W4 m ρ c (Proc.devRef .tc b) = launched m c b := by
  rcases hb with rfl | rfl | rfl | rfl | rfl
  · exact (W4_keep m ρ c _ (by decide)).trans (W3_arg m ρ c _ (by simp))
  · exact (W4_keep m ρ c _ (by decide)).trans (W3_arg m ρ c _ (by simp))
  · exact (W4_keep m ρ c _ (by decide)).trans (W3_arg m ρ c _ (by simp))
  · exact (W4_keep m ρ c _ (by decide)).trans (W3_arg m ρ c _ (by simp))
  · exact (W4_keep m ρ c _ (by decide)).trans (W3_arg m ρ c _ (by simp))

variable (hpre : Cert.Pre_KernelIdeal m)
include hpre

theorem W4_inRange : Cert.GcnSpec.InRange (W4 m ρ c (Proc.devRef .tc main_v5)) := by
  rw [W4_row m ρ c]
  exact Cert.RowRange.rowIdx_inRange m hpre c

/-- The first aggregation. -/
theorem W6_agg : W6 m ρ c (Proc.devRef .tc main_v39)
    = Cert.GcnSpec.agg128 (F := Ideal) (Cert.GcnSpec.mm1 (launched m c main_arg0) (launched m c main_arg3))
        (Cert.GcnSpec.rowIdx (launched m c main_arg1)) (Cert.GcnSpec.colIdx (launched m c main_arg1))
        (Cert.GcnSpec.coeff (Cert.GcnSpec.rowIdx (launched m c main_arg1)) (Cert.GcnSpec.colIdx (launched m c main_arg1)) (Cert.GcnSpec.weights (launched m c main_arg2))) := by
  refine (s1_agg (W4 m ρ c) (W4_inRange m ρ c hpre)).trans ?_
  rw [W4_xw m ρ c, W4_row m ρ c, W4_col m ρ c, W4_coeff m ρ c]
omit hpre

theorem W6_bias : W6 m ρ c (Proc.devRef .tc main_v40)
    = broadcastInDim Cert.ReferenceIdeal.S1x128 ![1] Cert.ReferenceIdeal.Facts₀.bcast_S128_S1x128_1 (launched m c main_arg4) := by
  refine (s1_bias (W4 m ρ c)).trans ?_
  rw [W4_arg m ρ c main_arg4 (by simp)]

theorem W6_keep (b : Ref sig .tc)
    (hb : b = main_v5 ∨ b = main_v6 ∨ b = main_v31 ∨ b = main_arg5 ∨ b = main_arg6 ∨ b = main_arg7 ∨ b = main_arg8) :
    W6 m ρ c (Proc.devRef .tc b) = W4 m ρ c (Proc.devRef .tc b) := s1_keep (W4 m ρ c) b hb

/-! ## After the second pallas_call -/
include hpre

theorem W7_hw : W7 m ρ c (Proc.devRef .tc main_v41)
    = Cert.GcnSpec.mm2 (F := Ideal)
        (Cert.GcnSpec.act128
          (Cert.GcnSpec.agg128 (Cert.GcnSpec.mm1 (launched m c main_arg0) (launched m c main_arg3))
            (Cert.GcnSpec.rowIdx (launched m c main_arg1)) (Cert.GcnSpec.colIdx (launched m c main_arg1))
            (Cert.GcnSpec.coeff (Cert.GcnSpec.rowIdx (launched m c main_arg1)) (Cert.GcnSpec.colIdx (launched m c main_arg1)) (Cert.GcnSpec.weights (launched m c main_arg2))))
          (launched m c main_arg4))
        (launched m c main_arg5) := by
  refine ((W7_arr m ρ c 3).trans (region1_array (V6 m ρ) c)).trans ?_
  show Cert.GcnSpec.mm2 (F := Ideal) (Cert.GcnSpec.actRow128 (W6 m ρ c (Proc.devRef .tc main_v39)) (W6 m ρ c (Proc.devRef .tc main_v40)))
    (W6 m ρ c (Proc.devRef .tc main_arg5)) = _
  rw [W6_agg m ρ c hpre, W6_bias m ρ c, W6_keep m ρ c main_arg5 (by simp), W4_arg m ρ c main_arg5 (by simp)]
  rfl
omit hpre

theorem W7_keep (b : Ref sig .tc) (hb : ∀ w, Pipeline.arrRef spec1 w ≠ b) :
    W7 m ρ c (Proc.devRef .tc b) = W6 m ρ c (Proc.devRef .tc b) := W7_of_ne m ρ c b hb

theorem W7_row : W7 m ρ c (Proc.devRef .tc main_v5) = Cert.GcnSpec.rowIdx (launched m c main_arg1) :=
  (W7_keep m ρ c main_v5 (by decide)).trans ((W6_keep m ρ c main_v5 (by simp)).trans (W4_row m ρ c))
theorem W7_col : W7 m ρ c (Proc.devRef .tc main_v6) = Cert.GcnSpec.colIdx (launched m c main_arg1) :=
  (W7_keep m ρ c main_v6 (by decide)).trans ((W6_keep m ρ c main_v6 (by simp)).trans (W4_col m ρ c))
theorem W7_coeff : W7 m ρ c (Proc.devRef .tc main_v31)
    = Cert.GcnSpec.coeff (F := Ideal) (Cert.GcnSpec.rowIdx (launched m c main_arg1)) (Cert.GcnSpec.colIdx (launched m c main_arg1)) (Cert.GcnSpec.weights (launched m c main_arg2)) :=
  (W7_keep m ρ c main_v31 (by decide)).trans ((W6_keep m ρ c main_v31 (by simp)).trans (W4_coeff m ρ c))
theorem W7_arg (b : Ref sig .tc) (hb : b = main_arg6 ∨ b = main_arg7 ∨ b = main_arg8) :
    W7 m ρ c (Proc.devRef .tc b) = launched m c b := by
  rcases hb with rfl | rfl | rfl
  · exact (W7_keep m ρ c _ (by decide)).trans ((W6_keep m ρ c _ (by simp)).trans (W4_arg m ρ c _ (by simp)))
  · exact (W7_keep m ρ c _ (by decide)).trans ((W6_keep m ρ c _ (by simp)).trans (W4_arg m ρ c _ (by simp)))
  · exact (W7_keep m ρ c _ (by decide)).trans ((W6_keep m ρ c _ (by simp)).trans (W4_arg m ρ c _ (by simp)))

theorem W7_inRange (hpre : Cert.Pre_KernelIdeal m) : Cert.GcnSpec.InRange (W7 m ρ c (Proc.devRef .tc main_v5)) := by
  rw [W7_row m ρ c]
  exact Cert.RowRange.rowIdx_inRange m hpre c

/-! ## At the third pallas_call's entry, and the result -/
include hpre

/-- The result buffer at the last boundary: the network's value of the arguments as launched. -/
theorem result_eq : W10 m ρ c (Proc.devRef .tc main_v51)
    = Cert.GcnSpec.result (F := Ideal) (launched m c main_arg0) (launched m c main_arg1) (launched m c main_arg2)
        (launched m c main_arg3) (launched m c main_arg4) (launched m c main_arg5) (launched m c main_arg6)
        (launched m c main_arg7) (launched m c main_arg8) := by
  refine ((W10_arr m ρ c 4).trans (region2_array (V9 m ρ) c)).trans ?_
  show Cert.GcnSpec.headRow (F := Ideal)
    (Cert.GcnSpec.actRow32 (after2 (W7 m ρ c) (Proc.devRef .tc main_v48)) (after2 (W7 m ρ c) (Proc.devRef .tc main_v49)))
    (after2 (W7 m ρ c) (Proc.devRef .tc main_arg7)) (after2 (W7 m ρ c) (Proc.devRef .tc main_v50)) = _
  rw [s2_agg (W7 m ρ c) (W7_inRange m ρ c hpre), s2_bias (W7 m ρ c), s2_headBias (W7 m ρ c), s2_keep (W7 m ρ c) main_arg7 rfl,
    W7_hw m ρ c hpre, W7_row m ρ c, W7_col m ρ c, W7_coeff m ρ c, W7_arg m ρ c main_arg6 (by simp), W7_arg m ρ c main_arg7 (by simp),
    W7_arg m ρ c main_arg8 (by simp)]
  rfl

end Cert.KernelIdeal.KernelValue

end
-- ==== Proof.RefOpsList.lean ====
import proofs.«409339_j59287728554038_2_alg».proof.Proof.Gen.ReferenceIdeal
import Idealize.ShloMosaic.Lib.StableHlo.Run

noncomputable section

namespace Cert.RefOps

open Cert.ReferenceIdeal Cert.ReferenceIdeal.Facts₀ Idealize.ShloMosaic Idealize.ShloMosaic.StableHlo

variable {F : FTy → Type} [FloatOps F]

/-- The operations of statements window 0 of @main (62 operations). -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S100000 ![] bcast_S_S100000),
    StableHlo.TRef.ternary (.of main_v13) (.of main_v14) main_call0.v1 main_call0.v2 select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v5 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v5 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v8 main_v23 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_6 (constantI S_ 32 0#32),
    StableHlo.unary main_c_6 main_v33 (broadcastInDim S1700000 ![] bcast_S_S1700000 : (⟨S_, .i32⟩ : BufTy).Contents (Elt F) → (⟨S1700000, .i32⟩ : BufTy).Contents (Elt F)),
    StableHlo.binary main_v5 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v35 (broadcastInDim S1700000 ![] bcast_S_S1700000 : (⟨S_, .i32⟩ : BufTy).Contents (Elt F) → (⟨S1700000, .i32⟩ : BufTy).Contents (Elt F)),
    StableHlo.binary main_v5 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v5 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v31 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v43 (broadcastInDim S100000x128 ![] bcast_S_S100000x128 : (⟨S_, .f32⟩ : BufTy).Contents (Elt F) → (⟨S100000x128, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The operations of statements window 1 of @main (74 operations). -/
abbrev ops1 : List (HloOp τ sig (Elt F)) :=
  [ StableHlo.nullary main_cst_9 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v48) main_call1.v0 main_call1.v1 (cmpf .oge),
    StableHlo.TRef.unary (.of main_cst_9) main_call1.v2 id,
    StableHlo.TRef.unary main_call1.v2 main_call1.v3 (broadcastInDim S100000x128 ![] bcast_S_S100000x128),
    StableHlo.TRef.binary main_call1.v3 (.of main_v48) main_call1.v4 mulf,
    StableHlo.TRef.ternary main_call1.v1 (.of main_v48) main_call1.v4 main_call1.call0.v0 select,
    StableHlo.nullary main_v50 (iotaInDim S100000 32 0),
    StableHlo.binary main_v1 main_v50 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v50 main_v52 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_10 (constant S_ .f32 0x3F800000#32),
    StableHlo.unary main_cst_10 main_v53 (broadcastInDim S100000 ![] bcast_S_S100000 : (⟨S_, .f32⟩ : BufTy).Contents (Elt F) → (⟨S100000, .f32⟩ : BufTy).Contents (Elt F)),
    StableHlo.binary main_arg2 main_v53 main_v54 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_11 (constant S_ .f32 0x00000000#32),
    StableHlo.unary main_cst_11 main_v55 (broadcastInDim S100000 ![] bcast_S_S100000 : (⟨S_, .f32⟩ : BufTy).Contents (Elt F) → (⟨S100000, .f32⟩ : BufTy).Contents (Elt F)),
    StableHlo.unary main_v52 main_v56 (broadcastInDim S1700000x1 ![0] bcast_S1700000_S1700000x1_0 : (⟨S1700000, .i32⟩ : BufTy).Contents (Elt F) → (⟨S1700000x1, .i32⟩ : BufTy).Contents (Elt F)),
    StableHlo.ternary main_v55 main_v56 main_v54 main_v57 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_12 (constant S_ .f32 0x00000000#32),
    StableHlo.unary main_cst_12 main_v58 (broadcastInDim S100000 ![] bcast_S_S100000 : (⟨S_, .f32⟩ : BufTy).Contents (Elt F) → (⟨S100000, .f32⟩ : BufTy).Contents (Elt F)),
    StableHlo.binary main_v57 main_v58 main_v59 (cmpf .ogt : (⟨S100000, .f32⟩ : BufTy).Contents (Elt F) → (⟨S100000, .f32⟩ : BufTy).Contents (Elt F) → (⟨S100000, .i1⟩ : BufTy).Contents (Elt F)),
    StableHlo.unary main_v57 main_v60 (Host.rsqrt : (⟨S100000, .f32⟩ : BufTy).Contents (Elt F) → (⟨S100000, .f32⟩ : BufTy).Contents (Elt F)),
    StableHlo.nullary main_cst_13 (constant S_ .f32 0x00000000#32),
    StableHlo.TRef.unary (.of main_cst_13) main_call2.v0 id,
    StableHlo.TRef.unary main_call2.v0 main_call2.v1 (broadcastInDim S100000 ![] bcast_S_S100000),
    StableHlo.TRef.ternary (.of main_v59) (.of main_v60) main_call2.v1 main_call2.v2 select,
    StableHlo.nullary main_c_14 (constantI S_ 32 0#32),
    StableHlo.unary main_c_14 main_v62 (broadcastInDim S1700000 ![] bcast_S_S1700000 : (⟨S_, .i32⟩ : BufTy).Contents (Elt F) → (⟨S1700000, .i32⟩ : BufTy).Contents (Elt F)),
    StableHlo.binary main_v51 main_v62 main_v63 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v64 (broadcastInDim S1700000 ![] bcast_S_S1700000 : (⟨S_, .i32⟩ : BufTy).Contents (Elt F) → (⟨S1700000, .i32⟩ : BufTy).Contents (Elt F)),
    StableHlo.binary main_v51 main_v64 main_v65 (addi : (⟨S1700000, .i32⟩ : BufTy).Contents (Elt F) → (⟨S1700000, .i32⟩ : BufTy).Contents (Elt F) → (⟨S1700000, .i32⟩ : BufTy).Contents (Elt F)),
    StableHlo.ternary main_v63 main_v65 main_v51 main_v66 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v66 main_v67 (broadcastInDim S1700000x1 ![0] bcast_S1700000_S1700000x1_0 : (⟨S1700000, .i32⟩ : BufTy).Contents (Elt F) → (⟨S1700000x1, .i32⟩ : BufTy).Contents (Elt F)),
    StableHlo.binary main_v61 main_v67 main_v68 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v68 main_v54 main_v69 (mulf : (⟨S1700000, .f32⟩ : BufTy).Contents (Elt F) → (⟨S1700000, .f32⟩ : BufTy).Contents (Elt F) → (⟨S1700000, .f32⟩ : BufTy).Contents (Elt F)),
    StableHlo.nullary main_c_16 (constantI S_ 32 0#32),
    StableHlo.unary main_c_16 main_v70 (broadcastInDim S1700000 ![] bcast_S_S1700000 : (⟨S_, .i32⟩ : BufTy).Contents (Elt F) → (⟨S1700000, .i32⟩ : BufTy).Contents (Elt F)),
    StableHlo.binary main_v52 main_v70 main_v71 (cmpi .slt : (⟨S1700000, .i32⟩ : BufTy).Contents (Elt F) → (⟨S1700000, .i32⟩ : BufTy).Contents (Elt F) → (⟨S1700000, .i1⟩ : BufTy).Contents (Elt F)),
    StableHlo.nullary main_c_17 (constantI S_ 32 100000#32),
    StableHlo.unary main_c_17 main_v72 (broadcastInDim S1700000 ![] bcast_S_S1700000 : (⟨S_, .i32⟩ : BufTy).Contents (Elt F) → (⟨S1700000, .i32⟩ : BufTy).Contents (Elt F)),
    StableHlo.binary main_v52 main_v72 main_v73 (addi : (⟨S1700000, .i32⟩ : BufTy).Contents (Elt F) → (⟨S1700000, .i32⟩ : BufTy).Contents (Elt F) → (⟨S1700000, .i32⟩ : BufTy).Contents (Elt F)),
    StableHlo.ternary main_v71 main_v73 main_v52 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v74 main_v75 (broadcastInDim S1700000x1 ![0] bcast_S1700000_S1700000x1_0 : (⟨S1700000, .i32⟩ : BufTy).Contents (Elt F) → (⟨S1700000x1, .i32⟩ : BufTy).Contents (Elt F)),
    StableHlo.binary main_v61 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v69 main_v76 main_v77 (mulf : (⟨S1700000, .f32⟩ : BufTy).Contents (Elt F) → (⟨S1700000, .f32⟩ : BufTy).Contents (Elt F) → (⟨S1700000, .f32⟩ : BufTy).Contents (Elt F)),
    StableHlo.binary main_v49 main_arg5 main_v78 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.nullary main_c_18 (constantI S_ 32 0#32),
    StableHlo.unary main_c_18 main_v79 (broadcastInDim S1700000 ![] bcast_S_S1700000 : (⟨S_, .i32⟩ : BufTy).Contents (Elt F) → (⟨S1700000, .i32⟩ : BufTy).Contents (Elt F)),
    StableHlo.binary main_v51 main_v79 main_v80 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v81 (broadcastInDim S1700000 ![] bcast_S_S1700000 : (⟨S_, .i32⟩ : BufTy).Contents (Elt F) → (⟨S1700000, .i32⟩ : BufTy).Contents (Elt F)),
    StableHlo.binary main_v51 main_v81 main_v82 (addi : (⟨S1700000, .i32⟩ : BufTy).Contents (Elt F) → (⟨S1700000, .i32⟩ : BufTy).Contents (Elt F) → (⟨S1700000, .i32⟩ : BufTy).Contents (Elt F)),
    StableHlo.ternary main_v80 main_v82 main_v51 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v83 main_v84 (broadcastInDim S1700000x1 ![0] bcast_S1700000_S1700000x1_0 : (⟨S1700000, .i32⟩ : BufTy).Contents (Elt F) → (⟨S1700000x1, .i32⟩ : BufTy).Contents (Elt F)),
    StableHlo.binary main_v78 main_v84 main_v85 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v77 main_v86 (broadcastInDim S1700000x1 ![0] bcast_S1700000_S1700000x1_0 : (⟨S1700000, .f32⟩ : BufTy).Contents (Elt F) → (⟨S1700000x1, .f32⟩ : BufTy).Contents (Elt F)),
    StableHlo.unary main_v86 main_v87 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v85 main_v87 main_v88 (mulf : (⟨S1700000x32, .f32⟩ : BufTy).Contents (Elt F) → (⟨S1700000x32, .f32⟩ : BufTy).Contents (Elt F) → (⟨S1700000x32, .f32⟩ : BufTy).Contents (Elt F)),
    StableHlo.nullary main_cst_20 (constant S_ .f32 0x00000000#32),
    StableHlo.unary main_cst_20 main_v89 (broadcastInDim S100000x32 ![] bcast_S_S100000x32 : (⟨S_, .f32⟩ : BufTy).Contents (Elt F) → (⟨S100000x32, .f32⟩ : BufTy).Contents (Elt F)),
    StableHlo.unary main_v52 main_v90 (broadcastInDim S1700000x1 ![0] bcast_S1700000_S1700000x1_0 : (⟨S1700000, .i32⟩ : BufTy).Contents (Elt F) → (⟨S1700000x1, .i32⟩ : BufTy).Contents (Elt F)),
    StableHlo.ternary main_v89 main_v90 main_v88 main_v91 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg6 main_v92 (broadcastInDim S1x32 ![1] bcast_S32_S1x32_1 : (⟨S32, .f32⟩ : BufTy).Contents (Elt F) → (⟨S1x32, .f32⟩ : BufTy).Contents (Elt F)),
    StableHlo.unary main_v92 main_v93 (broadcastInDim S100000x32 ![0, 1] bcast_S1x32_S100000x32_0_1 : (⟨S1x32, .f32⟩ : BufTy).Contents (Elt F) → (⟨S100000x32, .f32⟩ : BufTy).Contents (Elt F)),
    StableHlo.binary main_v91 main_v93 main_v94 (addf : (⟨S100000x32, .f32⟩ : BufTy).Contents (Elt F) → (⟨S100000x32, .f32⟩ : BufTy).Contents (Elt F) → (⟨S100000x32, .f32⟩ : BufTy).Contents (Elt F)),
    StableHlo.nullary main_cst_21 (constant S_ .f32 0x3C23D70A#32),
    StableHlo.TRef.nullary main_call3.cst (constant S_ .f32 0x00000000#32),
    StableHlo.TRef.unary main_call3.cst main_call3.v0 (broadcastInDim S100000x32 ![] bcast_S_S100000x32),
    StableHlo.TRef.binary (.of main_v94) main_call3.v0 main_call3.v1 (cmpf .oge),
    StableHlo.TRef.unary (.of main_cst_21) main_call3.v2 id,
    StableHlo.TRef.unary main_call3.v2 main_call3.v3 (broadcastInDim S100000x32 ![] bcast_S_S100000x32),
    StableHlo.TRef.binary main_call3.v3 (.of main_v94) main_call3.v4 mulf,
    StableHlo.TRef.ternary main_call3.v1 (.of main_v94) main_call3.v4 main_call3.call0.v0 select ]

/-- The operations of statements window 2 of @main (4 operations). -/
abbrev ops2 : List (HloOp τ sig (Elt F)) :=
  [ StableHlo.binary main_v95 main_arg7 main_v96 ((fun l r => Host.dotGeneral dot_S100000x32_S32x3_S100000x3_1_0_0_1_n_n none l r) : (⟨S100000x32, .f32⟩ : BufTy).Contents (Elt F) → (⟨S32x3, .f32⟩ : BufTy).Contents (Elt F) → (⟨S100000x3, .f32⟩ : BufTy).Contents (Elt F)),
    StableHlo.unary main_arg8 main_v97 (broadcastInDim S1x3 ![1] bcast_S3_S1x3_1 : (⟨S3, .f32⟩ : BufTy).Contents (Elt F) → (⟨S1x3, .f32⟩ : BufTy).Contents (Elt F)),
    StableHlo.unary main_v97 main_v98 (broadcastInDim S100000x3 ![0, 1] bcast_S1x3_S100000x3_0_1 : (⟨S1x3, .f32⟩ : BufTy).Contents (Elt F) → (⟨S100000x3, .f32⟩ : BufTy).Contents (Elt F)),
    StableHlo.binary main_v96 main_v98 main_v99 (addf : (⟨S100000x3, .f32⟩ : BufTy).Contents (Elt F) → (⟨S100000x3, .f32⟩ : BufTy).Contents (Elt F) → (⟨S100000x3, .f32⟩ : BufTy).Contents (Elt F)) ]

end Cert.RefOps

end
-- ==== Proof.RefRun.lean ====
/- The reference program's @main is a straight line of 140 host operations, and its run read back as their fold. -/
import proofs.«409339_j59287728554038_2_alg».proof.Proof.RefOpsList

noncomputable section

namespace Cert.RefOps

open Cert.ReferenceIdeal Cert.ReferenceIdeal.Facts₀ Idealize.ShloMosaic Idealize.ShloMosaic.TcCoe Idealize.SL.Sem Idealize.ShloMosaic.StableHlo

variable {F : FTy → Type} [FloatOps F]

/-- @main's operations in program order. -/
abbrev ops : List (HloOp τ sig (Elt F)) := ops0 ++ (ops1 ++ ops2)

/-! ## The program is the line

A window of @main is a chain of operation steps and of calls; a call's body is again such a chain over the call's
record, ending in a return that binds nothing. With every body put in place of its call, the returns absorbed
(`pure_bind`) and the sequencing associated to the right (`bind_assoc`), the window is one chain `step; step; …`,
which is what `seq` makes of the window's list, operation by operation. -/

-- the chain is traversed once per step, sixty-two deep here and seventy-four in the next window
set_option maxRecDepth 8192 in
/-- Statements 1 … 60, the call of @_where (its convert, broadcast and select over `main_call0`) in place: the line `ops0`. -/
theorem part0_eq (c : Dev nD) : main_part0 (F := F) c = seq ops0 := by
  simp only [main_part0, fn_where.body, seq, bind_assoc, pure_bind]
  rfl

set_option maxRecDepth 8192 in
/-- Statements 61 … 120: @leaky_relu over `main_call1` and @leaky_relu_1 over `main_call3`, each with the select of
    its inner call as its last operation, and @_where over `main_call2`, in place: the line `ops1`. -/
theorem part1_eq (c : Dev nD) : main_part1 (F := F) c = seq ops1 := by
  simp only [main_part1, fn_where.body, fn_leaky_relu.body, fn_where_0.body, fn_leaky_relu_1.body, fn_where_2.body,
    seq, bind_assoc, pure_bind]

/-- Statements 121 … 125 (the last product, the bias broadcast twice, the sum; no call): the line `ops2`. -/
theorem part2_eq (c : Dev nD) : main_part2 (F := F) c = seq ops2 := by
  simp only [main_part2, seq, bind_assoc, pure_bind]

/-- @main runs its three windows in order, and lines run one after the other are their concatenation run as one
    (`seq_append`, once per junction); what is left is @main's own definition. -/
theorem main_eq (c : Dev nD) : main (F := F) c = seq ops := by
  show main (F := F) c = seq (ops0 ++ (ops1 ++ ops2))
  rw [seq_append, seq_append, ← part0_eq c, ← part1_eq c, ← part2_eq c]
  rfl

/-! ## Every operation touches TensorCore references only, and none allocates

Each operation is made by a builder over references of this signature, so its buffers are TensorCore references
(one `*_bufs_sub` per operation, by its number of operands, in the list's order), and no builder allocates. -/

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

theorem ops1_sub : (ops1 : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub .., nullary_bufs_sub .., binary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub ..⟩

theorem ops2_sub : (ops2 : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig :=
  List.forall_append.2 ⟨ops0_sub, List.forall_append.2 ⟨ops1_sub, ops2_sub⟩⟩

/-- A member of a literal list is one of its entries, and at each entry the set of allocated buffers is empty by
    the builder's definition. -/
theorem ops0_fresh : ∀ op ∈ (ops0 : List (HloOp τ sig (Elt F))), op.fresh = ∅ := by
  intro op h
  (repeat (cases h with | head => rfl | tail _ h => ?_))
  exact nomatch h

theorem ops1_fresh : ∀ op ∈ (ops1 : List (HloOp τ sig (Elt F))), op.fresh = ∅ := by
  intro op h
  (repeat (cases h with | head => rfl | tail _ h => ?_))
  exact nomatch h

theorem ops2_fresh : ∀ op ∈ (ops2 : List (HloOp τ sig (Elt F))), op.fresh = ∅ := by
  intro op h
  (repeat (cases h with | head => rfl | tail _ h => ?_))
  exact nomatch h

theorem ops_fresh : ∀ op ∈ (ops : List (HloOp τ sig (Elt F))), op.fresh = ∅ := by
  intro op h
  rcases List.mem_append.1 h with h | h
  · exact ops0_fresh op h
  · rcases List.mem_append.1 h with h | h
    · exact ops1_fresh op h
    · exact ops2_fresh op h

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates, each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.RefOps

end
-- ==== Proof.LibHostRead.lean ====
/-
  A straight line of host operations in which no buffer is rewritten, read at a buffer.

  A line of StableHLO operations over a device's buffers is run as a fold: each operation rewrites the buffers it writes
  and leaves the rest. When every operation writes a buffer that no later operation writes and that no earlier operation
  reads or writes (static single assignment, in program order), the contents of an operation's result buffer AFTER THE
  WHOLE LINE are the operation's function of the contents, after the whole line, of its operand buffers: nothing after
  the operation touches its result or its operands. That order is a decidable property of a literal line; with it the
  fold is never opened again.
-/
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

/-- No operation writes a buffer an EARLIER operation of the line reads or writes. -/
def Fresh (L : List (HloOp τ sig Val)) : Prop := L.Pairwise fun o₁ o₂ => Disjoint o₂.writes o₁.bufs

instance (L : List (HloOp τ sig Val)) : Decidable (Fresh L) := inferInstanceAs (Decidable (L.Pairwise _))

/-- A buffer of operation number `p` holds, after the whole line, what it held right after that operation. -/
theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

/- In each lemma the operation is named by its number `p` in the line and `hop` says which builder it is (`rfl` on a
   literal line); the builder's own side proofs (its buffers are on the device and unscoped), the bound on `p` and the
   operands' being other buffers than the result are found by computation. -/

/-- A constant. -/
theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

/-- An operation of one operand. -/
theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

/-- A reshape. -/
theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

/-- An operation of two operands. -/
theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

/-- An operation of three operands. -/
theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

/-- An operation of a family of operands (a concatenation). -/
theorem read_nary {n : Nat} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hp : p < L.length := by decide) (hop : L[p] = nary xs y f hxs hy) (hne : ∀ k, xs k ≠ y := by decide) :
    after L V (Proc.devRef .tc y) = f (fun k => after L V (Proc.devRef .tc (xs k))) := by
  have hb : (nary (τ := τ) xs y f hxs hy).bufs
      = insert (Proc.devRef .tc y) (Finset.univ.image fun k => Proc.devRef (τ := τ) .tc (xs k)) := rfl
  have hy' : Proc.devRef .tc y ∈ L[p].bufs := by rw [hop, hb]; exact Finset.mem_insert_self _ _
  have hx' : ∀ k, Proc.devRef .tc (xs k) ∈ L[p].bufs := fun k => by
    rw [hop, hb]; exact Finset.mem_insert_of_mem (Finset.mem_image_of_mem _ (Finset.mem_univ k))
  rw [after_at hL p hp V hy', hop, nary_result]
  congr 1
  funext k
  rw [after_at hL p hp V (hx' k), hop, nary_result_ne _ _ _ _ _ _ (hne k)]

end Cert.HostRead

end
-- ==== Proof.LibHostRank.lean ====
/-
  Freshness of a straight line of host operations from a ranking of its buffers.

  A line is fresh when no operation writes a buffer that an earlier operation reads or writes. Checked pair by pair that
  is quadratic in the length of the line. When the buffers carry a rank — their index in the buffer table, say — such
  that operation number p writes only buffers of rank n + p and touches only buffers of rank at most n + p, the line is
  fresh: a later operation's results have a larger rank than anything an earlier one touches. That condition is linear
  in the length of the line, and it splits along a concatenation.
-/
import proofs.«409339_j59287728554038_2_alg».proof.Proof.LibHostRead

noncomputable section

namespace Cert.HostRead

open Idealize.ShloMosaic Idealize.ShloMosaic.StableHlo

variable {τ : Topo} {sig : RefSig} {Val : EltTy → Type}

/-- From rank n on, each operation writes only buffers of the next rank and touches only buffers up to it. -/
def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

/-- A ranked line followed by a line ranked from where the first ends is ranked. -/
theorem Ranked.append (rk : DevRef τ sig → Nat) : ∀ (n : Nat) (L₁ L₂ : List (HloOp τ sig Val)),
    Ranked rk n L₁ → Ranked rk (n + L₁.length) L₂ → Ranked rk n (L₁ ++ L₂)
  | n, [], L₂, _, h₂ => by simpa using h₂
  | n, o :: l, L₂, h₁, h₂ => by
    refine ⟨h₁.1, h₁.2.1, Ranked.append rk (n + 1) l L₂ h₁.2.2 ?_⟩
    have e : n + 1 + l.length = n + (o :: l).length := by simp [List.length_cons]; omega
    rw [e]; exact h₂

/-- In a line ranked from n every operation writes only buffers of rank at least n. -/
theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

/-- A buffer ranked below a line's first rank is written by no operation of the line: it keeps its contents. -/
theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

/-- A ranked line is fresh. -/
theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.RefValue.lean ====
/- The reference's result buffer, after its 140 operations, holds the network's value of the argument arrays. -/
import proofs.«409339_j59287728554038_2_alg».proof.Proof.RefOpsList
import proofs.«409339_j59287728554038_2_alg».proof.Proof.GcnSpec
import proofs.«409339_j59287728554038_2_alg».proof.Proof.LibHostRank

noncomputable section

namespace Cert.RefValue

open Cert.ReferenceIdeal Cert.ReferenceIdeal.Facts₀ Idealize.ShloMosaic Idealize.ShloMosaic.TcCoe Idealize.SL.Sem Idealize.ShloMosaic.StableHlo

variable {F : FTy → Type} [FloatOps F]

set_option maxHeartbeats 4000000 in
/-- The result buffer after the whole line is the network applied to the nine arguments as the line found them. -/
theorem result_eq (V : Valuation τ sig (Elt F)) :
    after (Cert.RefOps.ops0 ++ (Cert.RefOps.ops1 ++ Cert.RefOps.ops2)) V (Proc.devRef .tc main_v99)
      = Cert.GcnSpec.result (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) := by
  -- The line is static single assignment: reading the fold back from the result buffer, each operation's result is
  -- its function of its operands' contents, down to the arguments, which no operation writes. The composed term
  -- is the specification's, whose stage functions are these same operations (the second computation of the edge
  -- lists and coefficients gives the same values as the first, being the same functions of the same arguments).
  simp only [Cert.RefOps.ops0, Cert.RefOps.ops1, Cert.RefOps.ops2, List.cons_append, List.nil_append]
  after_results_simp
  rfl

end Cert.RefValue

end
-- ==== Proof.RefKeep.lean ====
/- No operation of the reference's line writes an argument buffer. -/
import proofs.«409339_j59287728554038_2_alg».proof.Proof.RefOpsList
import proofs.«409339_j59287728554038_2_alg».proof.Proof.LibHostRank

noncomputable section

namespace Cert.RefValue

open Cert.ReferenceIdeal Cert.ReferenceIdeal.Facts₀ Idealize.ShloMosaic Idealize.ShloMosaic.TcCoe Idealize.SL.Sem Idealize.ShloMosaic.StableHlo

variable {F : FTy → Type} [FloatOps F]

/-! The nine arguments are the first nine buffers of the table (indices 0 … 8); every operation of the line writes one
buffer, and that buffer's index is at least 9. A buffer written by an operation is therefore no argument. -/

/-- An operation whose written set is the one buffer `y`, of index at least `n`, writes only references of index at
    least `n` (a reference denotes one buffer of the device, injectively). -/
theorem idx_ge_of_writes {op : HloOp τ sig (Elt F)} {y : Ref sig .tc} (n : Nat)
    (hw : op.writes = {Proc.devRef .tc y}) (hy : n ≤ y.idx.val) :
    ∀ r : Ref sig .tc, Proc.devRef .tc r ∈ op.writes → n ≤ r.idx.val := by
  intro r hr
  rw [hw, Finset.mem_singleton] at hr
  cases Proc.devRef_injective _ hr
  exact hy

/-- A member of a literal list is one of its entries; each entry writes its result buffer only (by the builder's
    definition), whose index is a literal not below 9. -/
theorem ops0_idx_ge : ∀ op ∈ (Cert.RefOps.ops0 : List (HloOp τ sig (Elt F))),
    ∀ r : Ref sig .tc, Proc.devRef .tc r ∈ op.writes → 9 ≤ r.idx.val := by
  intro op h
  (repeat (cases h with | head => exact idx_ge_of_writes 9 rfl (by decide) | tail _ h => ?_))
  exact nomatch h

theorem ops1_idx_ge : ∀ op ∈ (Cert.RefOps.ops1 : List (HloOp τ sig (Elt F))),
    ∀ r : Ref sig .tc, Proc.devRef .tc r ∈ op.writes → 9 ≤ r.idx.val := by
  intro op h
  (repeat (cases h with | head => exact idx_ge_of_writes 9 rfl (by decide) | tail _ h => ?_))
  exact nomatch h

theorem ops2_idx_ge : ∀ op ∈ (Cert.RefOps.ops2 : List (HloOp τ sig (Elt F))),
    ∀ r : Ref sig .tc, Proc.devRef .tc r ∈ op.writes → 9 ≤ r.idx.val := by
  intro op h
  (repeat (cases h with | head => exact idx_ge_of_writes 9 rfl (by decide) | tail _ h => ?_))
  exact nomatch h

/-- No operation writes an argument. -/
theorem arg_keep (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    after (Cert.RefOps.ops0 ++ (Cert.RefOps.ops1 ++ Cert.RefOps.ops2)) V (Proc.devRef .tc b) = V (Proc.devRef .tc b) := by
  have hlt : b.idx.val < 9 := by
    rcases hb with rfl | rfl | rfl | rfl | rfl | rfl | rfl | rfl | rfl <;> decide
  refine after_of_forall_not_mem _ V fun op hop hw => ?_
  have hge : 9 ≤ b.idx.val := by
    rcases List.mem_append.1 hop with h | h
    · exact ops0_idx_ge op h b hw
    · rcases List.mem_append.1 h with h | h
      · exact ops1_idx_ge op h b hw
      · exact ops2_idx_ge op h b hw
  omega

end Cert.RefValue

end
-- ==== Proof.lean ====
/- The certificate: a two-layer graph convolution, its three feature transforms in Pallas kernels (the bias and the
   leaky rectifier fused into the next transform) and its two aggregations on the host, against the plain jnp network.
   The precondition carries one conjunct beside finiteness: every source index lies in [-100000, 100000), the range in
   which the kernel's take (which fills out-of-range rows) and the reference's indexing (which clamps) read the same rows.
   At the ideal values both programs end with GcnSpec.result of the argument arrays: the kernel's buffers are followed
   through its host operations and pallas_calls (KernelValue), the reference's through its 140 host operations
   (RefValue); tiling, the bf16 casts and the order of sums play no part on the extended reals, and the two spellings
   of the rectifier agree there. -/
import proofs.«409339_j59287728554038_2_alg».proof.Defs
import proofs.«409339_j59287728554038_2_alg».proof.Proof.Gen.Kernel
import proofs.«409339_j59287728554038_2_alg».proof.Proof.Gen.Kernel.Skeleton
import proofs.«409339_j59287728554038_2_alg».proof.Proof.Gen.Kernel.Launch
import proofs.«409339_j59287728554038_2_alg».proof.Proof.Gen.Kernel.Points
import proofs.«409339_j59287728554038_2_alg».proof.Proof.Gen.Kernel.Frame
import proofs.«409339_j59287728554038_2_alg».proof.Proof.Gen.KernelIdeal
import proofs.«409339_j59287728554038_2_alg».proof.Proof.Gen.KernelIdeal.Skeleton
import proofs.«409339_j59287728554038_2_alg».proof.Proof.Gen.KernelIdeal.Launch
import proofs.«409339_j59287728554038_2_alg».proof.Proof.Gen.KernelIdeal.Points
import proofs.«409339_j59287728554038_2_alg».proof.Proof.Gen.KernelIdeal.Frame
import proofs.«409339_j59287728554038_2_alg».proof.Proof.Gen.ReferenceIdeal
import proofs.«409339_j59287728554038_2_alg».proof.Proof.Gen.Pre_finite_inputs
import proofs.«409339_j59287728554038_2_alg».proof.Proof.KernelValue
import proofs.«409339_j59287728554038_2_alg».proof.Proof.RefRun
import proofs.«409339_j59287728554038_2_alg».proof.Proof.RefValue
import proofs.«409339_j59287728554038_2_alg».proof.Proof.RefKeep
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's arguments end as launched: none of its operations writes one. -/
theorem frame_reference : Cert.frame_ReferenceIdeal := fun m ρ _ =>
  (θ_run Cert.ReferenceIdeal.defs _ _).mono
    (fun r h c => ⟨(h c Cert.ReferenceIdeal.main_arg0).trans (Cert.RefValue.arg_keep _ _ (by simp)),
      (h c Cert.ReferenceIdeal.main_arg1).trans (Cert.RefValue.arg_keep _ _ (by simp)),
      (h c Cert.ReferenceIdeal.main_arg2).trans (Cert.RefValue.arg_keep _ _ (by simp)),
      (h c Cert.ReferenceIdeal.main_arg3).trans (Cert.RefValue.arg_keep _ _ (by simp)),
      (h c Cert.ReferenceIdeal.main_arg4).trans (Cert.RefValue.arg_keep _ _ (by simp)),
      (h c Cert.ReferenceIdeal.main_arg5).trans (Cert.RefValue.arg_keep _ _ (by simp)),
      (h c Cert.ReferenceIdeal.main_arg6).trans (Cert.RefValue.arg_keep _ _ (by simp)),
      (h c Cert.ReferenceIdeal.main_arg7).trans (Cert.RefValue.arg_keep _ _ (by simp)),
      (h c Cert.ReferenceIdeal.main_arg8).trans (Cert.RefValue.arg_keep _ _ (by simp))⟩)
    (Cert.RefOps.run_main (F := Ideal) m ρ)

/-- Both programs end with the network's value of the arguments. -/
theorem algebraic : Cert.algebraic_KernelIdeal_ReferenceIdeal := by
  intro m ρ m' ρ' hpre hagree
  refine ⟨fun c => Cert.GcnSpec.result (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KernelValue.result_eq m ρ c hpre), (h c).2⟩)
      (Cert.KernelIdeal.GenRun.run_value (F := Ideal) m ρ)
  · refine (θ_run Cert.ReferenceIdeal.defs _ _).mono (fun r h c => ⟨?_,
      (h c Cert.ReferenceIdeal.main_arg0).trans (Cert.RefValue.arg_keep _ _ (by simp)),
      (h c Cert.ReferenceIdeal.main_arg1).trans (Cert.RefValue.arg_keep _ _ (by simp)),
      (h c Cert.ReferenceIdeal.main_arg2).trans (Cert.RefValue.arg_keep _ _ (by simp)),
      (h c Cert.ReferenceIdeal.main_arg3).trans (Cert.RefValue.arg_keep _ _ (by simp)),
      (h c Cert.ReferenceIdeal.main_arg4).trans (Cert.RefValue.arg_keep _ _ (by simp)),
      (h c Cert.ReferenceIdeal.main_arg5).trans (Cert.RefValue.arg_keep _ _ (by simp)),
      (h c Cert.ReferenceIdeal.main_arg6).trans (Cert.RefValue.arg_keep _ _ (by simp)),
      (h c Cert.ReferenceIdeal.main_arg7).trans (Cert.RefValue.arg_keep _ _ (by simp)),
      (h c Cert.ReferenceIdeal.main_arg8).trans (Cert.RefValue.arg_keep _ _ (by simp))⟩)
      (Cert.RefOps.run_main (F := Ideal) m' ρ')
    refine (h c Cert.ReferenceIdeal.main_v99).trans ((Cert.RefValue.result_eq _).trans ?_)
    show Cert.GcnSpec.result (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
